-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S100000x1 : Shape := ⟨2, ![100000, 1]⟩
abbrev S512 : Shape := ⟨1, ![512]⟩
abbrev S512x128 : Shape := ⟨2, ![512, 128]⟩
abbrev S5000x1 : Shape := ⟨2, ![5000, 1]⟩
abbrev S5000x512 : Shape := ⟨2, ![5000, 512]⟩
abbrev S512x1 : Shape := ⟨2, ![512, 1]⟩
abbrev S1x1 : Shape := ⟨2, ![1, 1]⟩

abbrev nBuf : Space → Nat
  | .hbm => 113
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S700000, .f32⟩
  | .hbm, ⟨18, _⟩ => ⟨S_, .f32⟩
  | .hbm, ⟨19, _⟩ => ⟨S100000, .f32⟩
  | .hbm, ⟨20, _⟩ => ⟨S700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000, .f32⟩
  | .hbm, ⟨51, _⟩ => ⟨S700000, .f32⟩
  | .hbm, ⟨52, _⟩ => ⟨S100000x128, .f32⟩
  | .hbm, ⟨53, _⟩ => ⟨S700000x1, .f32⟩
  | .hbm, ⟨54, _⟩ => ⟨S_, .i32⟩
  | .hbm, ⟨55, _⟩ => ⟨S700000, .i32⟩
  | .hbm, ⟨56, _⟩ => ⟨S700000, .i1⟩
  | .hbm, ⟨57, _⟩ => ⟨S_, .i32⟩
  | .hbm, ⟨58, _⟩ => ⟨S700000, .i32⟩
  | .hbm, ⟨59, _⟩ => ⟨S700000, .i32⟩
  | .hbm, ⟨60, _⟩ => ⟨S700000, .i32⟩
  | .hbm, ⟨61, _⟩ => ⟨S700000x1, .i32⟩
  | .hbm, ⟨62, _⟩ => ⟨S700000x128, .f32⟩
  | .hbm, ⟨63, _⟩ => ⟨S700000x128, .f32⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S700000x1, .f32⟩
  | .hbm, ⟨77, _⟩ => ⟨S_, .i32⟩
  | .hbm, ⟨78, _⟩ => ⟨S700000, .i32⟩
  | .hbm, ⟨79, _⟩ => ⟨S700000, .i1⟩
  | .hbm, ⟨80, _⟩ => ⟨S_, .i32⟩
  | .hbm, ⟨81, _⟩ => ⟨S700000, .i32⟩
  | .hbm, ⟨82, _⟩ => ⟨S700000, .i32⟩
  | .hbm, ⟨83, _⟩ => ⟨S700000, .i32⟩
  | .hbm, ⟨84, _⟩ => ⟨S700000x1, .i32⟩
  | .hbm, ⟨85, _⟩ => ⟨S700000x128, .f32⟩
  | .hbm, ⟨86, _⟩ => ⟨S700000x128, .f32⟩
  | .hbm, ⟨87, _⟩ => ⟨S700000x128, .f32⟩
  | .hbm, ⟨88, _⟩ => ⟨S_, .f32⟩
  | .hbm, ⟨89, _⟩ => ⟨S100000x128, .f32⟩
  | .hbm, ⟨90, _⟩ => ⟨S700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S100000x1, .i32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S512, .f32⟩
  | .hbm, ⟨100, _⟩ => ⟨S100000x1, .i32⟩
  | .hbm, ⟨101, _⟩ => ⟨S512, .f32⟩
  | .hbm, ⟨102, _⟩ => ⟨S512x128, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x128, .f32⟩
  | .hbm, ⟨108, _⟩ => ⟨S512x128, .f32⟩
  | .hbm, ⟨109, _⟩ => ⟨S512x1, .f32⟩
  | .hbm, ⟨110, _⟩ => ⟨S1x1, .f32⟩
  | .hbm, ⟨111, _⟩ => ⟨S512x1, .f32⟩
  | .hbm, ⟨112, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S512x128, .f32⟩
  | .local _ .vmem, ⟨15, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S100000_S100000x1 : S100000.ShapeCasts S100000x1
  bcast_S_S512 : S_.BroadcastsInDim S512 (![] : Fin 0 → Fin S512.rank)
  bcast_S100000_S100000x1_0 : S100000.BroadcastsInDim S100000x1 (![0] : Fin 1 → Fin S100000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x512 : S5000x1.Broadcasts S5000x512
  natLt_1_32 : 1 < 32
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S512_S100000x1_S100000_n_0_0_1_wf : ScatterDims.WF S512 S100000x1 S100000 [] [0] [0] 1
  dot_S5000x512_S5000x128_S512x128_0_0_1_1_n_n_wf : DotDims.WF S5000x512 S5000x128 S512x128 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S512x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S700000, .f32⟩
  | .hbm, ⟨18, _⟩ => ⟨S_, .f32⟩
  | .hbm, ⟨19, _⟩ => ⟨S100000, .f32⟩
  | .hbm, ⟨20, _⟩ => ⟨S700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000, .f32⟩
  | .hbm, ⟨51, _⟩ => ⟨S700000, .f32⟩
  | .hbm, ⟨52, _⟩ => ⟨S700000x1, .f32⟩
  | .hbm, ⟨53, _⟩ => ⟨S100000x128, .f32⟩
  | .hbm, ⟨54, _⟩ => ⟨S_, .i32⟩
  | .hbm, ⟨55, _⟩ => ⟨S700000, .i32⟩
  | .hbm, ⟨56, _⟩ => ⟨S700000, .i1⟩
  | .hbm, ⟨57, _⟩ => ⟨S_, .i32⟩
  | .hbm, ⟨58, _⟩ => ⟨S700000, .i32⟩
  | .hbm, ⟨59, _⟩ => ⟨S700000, .i32⟩
  | .hbm, ⟨60, _⟩ => ⟨S700000, .i32⟩
  | .hbm, ⟨61, _⟩ => ⟨S700000x1, .i32⟩
  | .hbm, ⟨62, _⟩ => ⟨S700000x128, .f32⟩
  | .hbm, ⟨63, _⟩ => ⟨S700000x128, .f32⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x128, .f32⟩
  | .hbm, ⟨86, _⟩ => ⟨S700000x128, .f32⟩
  | .hbm, ⟨87, _⟩ => ⟨S_, .f32⟩
  | .hbm, ⟨88, _⟩ => ⟨S100000x128, .f32⟩
  | .hbm, ⟨89, _⟩ => ⟨S700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S512, .f32⟩
  | .hbm, ⟨98, _⟩ => ⟨S100000x1, .i32⟩
  | .hbm, ⟨99, _⟩ => ⟨S512, .f32⟩
  | .hbm, ⟨100, _⟩ => ⟨S_, .f32⟩
  | .hbm, ⟨101, _⟩ => ⟨S512x128, .f32⟩
  | .hbm, ⟨102, _⟩ => ⟨S100000x1, .i32⟩
  | .hbm, ⟨103, _⟩ => ⟨S512x128, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x128, .f32⟩
  | .hbm, ⟨109, _⟩ => ⟨S512x128, .f32⟩
  | .hbm, ⟨110, _⟩ => ⟨S512x1, .f32⟩
  | .hbm, ⟨111, _⟩ => ⟨S1x1, .f32⟩
  | .hbm, ⟨112, _⟩ => ⟨S512x1, .f32⟩
  | .hbm, ⟨113, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KReg0.lean ====
/- A row-tiled matrix product as one pipeline region: at grid point t the body multiplies the t-th block of
   5000 rows of the left operand by the whole 128x128 right operand and stores the product as the t-th block of
   rows of the result. Stated at a parameter V, the buffer contents the region is entered from. -/
import proofs.«425442_j15298673508536_2_alg».proof.Proof.Gen.Kernel.Launch
import proofs.«425442_j15298673508536_2_alg».proof.Proof.Gen.Kernel.Skeleton
import proofs.«425442_j15298673508536_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0

/-- The product block the body stores, from the two operand blocks. -/
def out0_2 (x0 : Vec F S5000x128 .f32) (x1 : Vec F S128x128 .f32) : Vec F S5000x128 .f32 :=
  View.canon [⟨rA0, k0_pay1 (View.ld x0 rA0) (View.ld x1 rB0)⟩]

theorem cover0_2 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The body on whole staging buffers: the operands stay, the result buffer ends at the product block. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: arrays as entered; each operand's buffer keeps its block; the result buffer holds the
    product of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KReg1.lean ====
/- A row-tiled matrix product as one pipeline region: at grid point t the body multiplies the t-th block of
   5000 rows of the left operand by the whole 128x128 right operand and stores the product as the t-th block of
   rows of the result. Stated at a parameter V, the buffer contents the region is entered from. -/
import proofs.«425442_j15298673508536_2_alg».proof.Proof.Gen.Kernel.Launch
import proofs.«425442_j15298673508536_2_alg».proof.Proof.Gen.Kernel.Skeleton
import proofs.«425442_j15298673508536_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0

/-- The product block the body stores, from the two operand blocks. -/
def out1_2 (x0 : Vec F S5000x128 .f32) (x1 : Vec F S128x128 .f32) : Vec F S5000x128 .f32 :=
  View.canon [⟨rA1, k1_pay1 (View.ld x0 rA1) (View.ld x1 rB1)⟩]

theorem cover1_2 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 1000000 in
/-- The body on whole staging buffers: the operands stay, the result buffer ends at the product block. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: arrays as entered; each operand's buffer keeps its block; the result buffer holds the
    product of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KReg2.lean ====
/- The pooling region: at grid point t the body adds, into a 512x128 accumulator kept in scratch memory across the
   grid, the product of the transposed one-hot matrix of the t-th block of 5000 segment ids with the t-th block of
   5000 feature rows; the accumulator is zeroed at the first point and copied to the result at the last. Stated
   at a parameter V, the buffer contents the region is entered from. -/
import proofs.«425442_j15298673508536_2_alg».proof.Proof.Gen.Kernel.Launch
import proofs.«425442_j15298673508536_2_alg».proof.Proof.Gen.Kernel.Skeleton
import proofs.«425442_j15298673508536_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem hz2 : (![0, 0] : Fin 2 → Nat) = fun _ => 0 := funext fun a => by fin_cases a <;> rfl

/-- The first branch condition of the body (is this the first point?), from the grid coordinates. -/
abbrev cond2_0 (i : grid2.Coords) : Prop := (Scalar.cmpi .ne (Scalar.extui (Scalar.cmpi .eq (BitVec.ofNat 32 (i 0).val) 0#32)) 0#32) = 1#1
/-- The second branch condition of the body (is this the last point?). -/
abbrev cond2_1 (i : grid2.Coords) : Prop := k2_cond2 i = 1#1

/-- The first condition holds at point 0 only: decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)
/-- The second condition holds at point 19 only: decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-- The rectangle through which the body loads and stores the whole accumulator. -/
abbrev rS2 : Rect S512x128 := Rect.unit (s := S512x128) ![0, 0] S512x128.size inb_S512x128_S512x128_0_0

/-- A list of stores whose last is through the whole-shape rectangle covers the shape. -/
theorem cover2_S (p0 : Vec F S512x128 .f32) (L : List (View.Piece (Elt F) S512x128 .f32)) (y : S512x128.Idx) :
    ∃ pc ∈ ((⟨rS2, p0⟩ : View.Piece (Elt F) S512x128 .f32) :: L), y ∈ pc.1.set :=
  ⟨_, List.mem_cons_self, View.mem_set_unit_zero hz2 inb_S512x128_S512x128_0_0 y⟩
set_option maxHeartbeats 1000000 in
/-- The body at the first point, on whole buffers: the accumulator, found at anything, is zeroed and then receives the
    point's product; the two operand blocks stay and the result buffer is handed back as found. -/
theorem sound_kernel2_A (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : cond2_0 i) (hc1 : ¬cond2_1 i)
    (x0 : Vec F S5000x128 .f32) (x1 : Vec F S5000x1 .i32) (xi : Vec F S512x128 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k2_pay2 x1 x0 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_S _ _)]
  rw [View.canon_cons_unit_zero (S := S512x128) hz2]
  sl_unfold_words
  rw [View.readCov_unit_zero (S := S512x128) _ hz2]
  simp only [View.readAt_eq_ld, View.ld_unit_zero (S := S5000x1) hz2, View.ld_unit_zero (S := S5000x128) hz2]

set_option maxHeartbeats 1000000 in
/-- The body at a point that is neither first nor last: the accumulator receives the point's product over what the
    point before left; the two operand blocks stay and the result buffer is handed back as found. -/
theorem sound_kernel2_B (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : ¬cond2_0 i) (hc1 : ¬cond2_1 i)
    (x0 : Vec F S5000x128 .f32) (x1 : Vec F S5000x1 .i32) (xi : Vec F S512x128 .f32) (xs : Vec F S512x128 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_S _ _)]
  rw [View.canon_cons_unit_zero (S := S512x128) hz2]
  simp only [View.readAt_eq_ld, View.ld_unit_zero (S := S5000x1) hz2, View.ld_unit_zero (S := S5000x128) hz2, View.ld_unit_zero (S := S512x128) hz2]

set_option maxHeartbeats 1000000 in
/-- The body at the last point: the accumulator receives the point's product over what the point before left, and is
    then copied into the result buffer, found at anything. -/
theorem sound_kernel2_C (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : ¬cond2_0 i) (hc1 : cond2_1 i)
    (x0 : Vec F S5000x128 .f32) (x1 : Vec F S5000x1 .i32) (xs : Vec F S512x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k2_pay2 x1 x0 xs) ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover2_S _ _), View.canon_cons_unit_zero (S := S512x128) hz2]
    sl_unfold_words
    rw [View.readCov_unit_zero (S := S512x128) _ hz2]
    simp only [View.readAt_eq_ld, View.ld_unit_zero (S := S5000x1) hz2, View.ld_unit_zero (S := S5000x128) hz2, View.ld_unit_zero (S := S512x128) hz2]
  iexists _; isplitr
  swap; · iexact HS
  ipureintro
  sl_unfold_words
  rw [View.read_writes_eq_canon _ _ _ (cover2_S _ _), View.canon_cons_unit_zero (S := S512x128) hz2]
  simp only [View.readAt_eq_ld, View.ld_unit_zero (S := S5000x1) hz2, View.ld_unit_zero (S := S5000x128) hz2, View.ld_unit_zero (S := S512x128) hz2]

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of feature rows is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of segment ids is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The accumulator after point n: the partial sums over the first n + 1 row blocks. -/
def accAt2 (c : Dev nD) : (n : ℕ) → n < cfg2.N → Vec F S512x128 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩) (accAt2 c n (Nat.lt_of_succ_lt hn))

theorem accAt2_zero (c : Dev nD) (hn : 0 < cfg2.N) :
    accAt2 V c 0 hn = k2_pay2 (iblk2 V c 1 ⟨0, hn⟩) (iblk2 V c 0 ⟨0, hn⟩) (k2_pay1 (F := F)) := rfl
theorem accAt2_succ (c : Dev nD) (n : ℕ) (hn : n + 1 < cfg2.N) :
    accAt2 V c (n + 1) hn = k2_pay2 (iblk2 V c 1 ⟨n + 1, hn⟩) (iblk2 V c 0 ⟨n + 1, hn⟩) (accAt2 V c n (Nat.lt_of_succ_lt hn)) := rfl

/-- At the first point the accumulator ends at the point's product over zeros. -/
theorem accAt2_first (c : Dev nD) (t : Fin cfg2.N) (h : t.val = 0) :
    accAt2 V c t.val t.isLt = k2_pay2 (iblk2 V c 1 t) (iblk2 V c 0 t) (k2_pay1 (F := F)) := by
  obtain ⟨n, hn⟩ := t
  cases n with
  | zero => rfl
  | succ n => exact absurd h (Nat.succ_ne_zero _)

/-- At a later point it ends at the point's product over what the point before left. -/
theorem accAt2_next (c : Dev nD) (t : Fin cfg2.N) (h : t.val ≠ 0) :
    accAt2 V c t.val t.isLt
      = k2_pay2 (iblk2 V c 1 t) (iblk2 V c 0 t) (accAt2 V c (t.val - 1) (Nat.lt_of_le_of_lt (Nat.sub_le _ _) t.isLt)) := by
  obtain ⟨n, hn⟩ := t
  cases n with
  | zero => exact absurd rfl h
  | succ n => rfl

/-- The accumulator, a whole scoped buffer the body is passed beside the windows. -/
abbrev scM2 : Memref sig .tc .vmem S512x128 .f32 := Memref.whole cc2_scratch0

/-- Every scoped buffer of the core that is neither a staging buffer of this region nor the accumulator, each whole
    at some contents: carried unopened. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [scM2, owns_whole, bigSepL_singleton]; try rfl

/-- The region invariant before position n: at first the accumulator holds anything; afterwards the partial sums. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ others2 (F := F) c) ∗ (∃ r, prngReg c r)) := by
  cases n with
  | zero => exact absurd rfl hz
  | succ n => rfl

/-- The region's proof data: arrays as entered; each operand's buffer keeps its block; the result buffer, consulted at
    the last point only, holds the accumulated sums; the invariant carries the accumulator at the partial sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Off the last point the result window is idle and not written back; at the last point it is live. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the operand buffers hold their blocks; the point is the first, the last, or neither, which
    selects the body's triple; the invariant hands the body the accumulator at what the point before left (at anything
    at the first point) and takes it back at this point's partial sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  have hN : t.val < 20 := lt_of_lt_of_eq t.isLt (show cfg2.N = 20 from N_2)
  by_cases h0 : t.val % 20 = 0
  · have hz : t.val = 0 := by omega
    have h1 : ¬t.val % 20 = 19 := by omega
    rw [Dat.leavesExact_idle (dat2 V c) 2 t (idleAt2_2 t (fun h => h1 ((hcond2_1 t).mp h))) (noFlush2_2 t (fun h => h1 ((hcond2_1 t).mp h)))]
    rw [accAt2_first V c t hz]
    rw [PhiS2_castSucc V c t, PhiS2_zero V c _ _ hz, PhiA2_eq]
    iintro ⟨⟨⟨HS, HR⟩, Hg⟩, Ho, ⟨%d0, H0⟩, ⟨%d1, H1⟩, ⟨%d2, H2⟩⟩
    iapply (sound_kernel2_A c Set.univ _ _ _ _ _ _ _ _ _ ((hcond2_0 t).mpr h0) (fun h => h1 ((hcond2_1 t).mp h)) (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    by_cases h1 : t.val % 20 = 19
    · rw [show (dat2 V c).leavesExact 2 t = owns (c : Thread nD τ) (st2_2 t) fullShare ((dat2 V c).after 2 t) from by
        unfold Dat.leavesExact; rw [liveAt2_2 t ((hcond2_1 t).mpr h1)], after2_2]
      rw [accAt2_next V c t hz]
      rw [PhiS2_castSucc V c t, PhiS2_pos V c _ _ hz]
      iintro ⟨⟨⟨HS, HR⟩, Hg⟩, Ho, ⟨%d0, H0⟩, ⟨%d1, H1⟩, ⟨%d2, H2⟩⟩
      iapply (sound_kernel2_C c Set.univ _ _ _ _ _ _ _ _ _ (fun h => h0 ((hcond2_0 t).mp h)) ((hcond2_1 t).mpr h1) (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      rw [accAt2_next V c t hz]
      rw [PhiS2_castSucc V c t, PhiS2_pos V c _ _ hz]
      iintro ⟨⟨⟨HS, HR⟩, Hg⟩, Ho, ⟨%d0, H0⟩, ⟨%d1, H1⟩, ⟨%d2, H2⟩⟩
      iapply (sound_kernel2_B c Set.univ _ _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitr [Hg]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 20 := N_2; omega)

end Region

end Cert.Kernel.Hand

end
-- ==== Proof.KFold.lean ====
/- The buffer contents between the items of the program, as a fold from the launch memory: a stretch of host
   operations applies them in order; a pipeline region replaces the arrays of its windows by what its write-backs
   leave (the inputs as entered, the result at the blocks written) and changes nothing else. -/
import proofs.«425442_j15298673508536_2_alg».proof.Proof.Gen.Kernel.Launch
import proofs.«425442_j15298673508536_2_alg».proof.Proof.Gen.Kernel.Skeleton
import proofs.«425442_j15298673508536_2_alg».proof.Proof.Gen.Kernel.Points
import proofs.«425442_j15298673508536_2_alg».proof.Proof.Gen.Kernel.Regions
import proofs.«425442_j15298673508536_2_alg».proof.Proof.KReg0
import proofs.«425442_j15298673508536_2_alg».proof.Proof.KReg1
import proofs.«425442_j15298673508536_2_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the three host stretches before the first matrix product. -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the core's own references: what the first region's proof data take. -/
abbrev R3 : (c : Dev nD) → (b : Ref sig .tc) → Buf (Elt F) ((c : Thread nD τ).loc b) := fun c b => W3 m c b
/-- After the first matrix product. -/
def W4 (c : Dev nD) : Valuation τ sig (Elt F) :=
  Pipeline.withArrays spec0 c (W3 m c) fun w => (dat0 (R3 m) c).arrAt w cfg0.N
abbrev W5 (c : Dev nD) : Valuation τ sig (Elt F) := StableHlo.after hostOps1 (W4 m c)
abbrev W6 (c : Dev nD) : Valuation τ sig (Elt F) := StableHlo.after hostOps1_1 (W5 m c)
abbrev R6 : (c : Dev nD) → (b : Ref sig .tc) → Buf (Elt F) ((c : Thread nD τ).loc b) := fun c b => W6 m c b
/-- After the second matrix product. -/
def W7 (c : Dev nD) : Valuation τ sig (Elt F) :=
  Pipeline.withArrays spec1 c (W6 m c) fun w => (dat1 (R6 m) c).arrAt w cfg1.N
abbrev W8 (c : Dev nD) : Valuation τ sig (Elt F) := StableHlo.after hostOps2 (W7 m c)
abbrev R8 : (c : Dev nD) → (b : Ref sig .tc) → Buf (Elt F) ((c : Thread nD τ).loc b) := fun c b => W8 m c b
/-- After the pooling region. -/
def W9 (c : Dev nD) : Valuation τ sig (Elt F) :=
  Pipeline.withArrays spec2 c (W8 m c) fun w => (dat2 (R8 m) c).arrAt w cfg2.N
/-- At the end. -/
abbrev W10 (c : Dev nD) : Valuation τ sig (Elt F) := StableHlo.after hostOps3 (W9 m c)

theorem W4_arr (c : Dev nD) (w : Fin cfg0.W) :
    W4 m c (Proc.devRef .tc (Pipeline.arrRef spec0 w)) = (dat0 (R3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev R4 : (c : Dev nD) → (b : Ref sig .tc) → Buf (Elt F) ((c : Thread nD τ).loc b) := fun c b => W4 m c b
theorem hF0 (c : Dev nD) (w : Fin cfg0.W) : (dat0 (R3 m) c).arrAt w cfg0.N = R4 m c (Pipeline.arrRef spec0 w) :=
  (W4_arr m c w).symm
theorem hrest0 (c : Dev nD) : ∀ b, b ∉ Finset.univ.image (Pipeline.arrRef spec0) → R4 m c b = R3 m c b :=
  fun b hb => W4_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (R6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev R7 : (c : Dev nD) → (b : Ref sig .tc) → Buf (Elt F) ((c : Thread nD τ).loc b) := fun c b => W7 m c b
theorem hF1 (c : Dev nD) (w : Fin cfg1.W) : (dat1 (R6 m) c).arrAt w cfg1.N = R7 m c (Pipeline.arrRef spec1 w) :=
  (W7_arr m c w).symm
theorem hrest1 (c : Dev nD) : ∀ b, b ∉ Finset.univ.image (Pipeline.arrRef spec1) → R7 m c b = R6 m c b :=
  fun b hb => W7_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (R8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev R9 : (c : Dev nD) → (b : Ref sig .tc) → Buf (Elt F) ((c : Thread nD τ).loc b) := fun c b => W9 m c b
theorem hF2 (c : Dev nD) (w : Fin cfg2.W) : (dat2 (R8 m) c).arrAt w cfg2.N = R9 m c (Pipeline.arrRef spec2 w) :=
  (W9_arr m c w).symm
theorem hrest2 (c : Dev nD) : ∀ b, b ∉ Finset.univ.image (Pipeline.arrRef spec2) → R9 m c b = R8 m c b :=
  fun b hb => W9_of_ne m c b fun w e => hb (Finset.mem_image.mpr ⟨w, Finset.mem_univ _, e⟩)

/-! A region changes only the array of its result window. -/

theorem W4_keep (c : Dev nD) (b : Ref sig .tc) (hb : b ≠ main_v32) : W4 m c (Proc.devRef .tc b) = W3 m c (Proc.devRef .tc b) := by
  by_cases h : ∃ w, Pipeline.arrRef spec0 w = b
  · obtain ⟨w, rfl⟩ := h
    fin_cases w
    · exact (W4_arr m c 0).trans (((dat0 (R3 m) c).arrAt_in 0 rfl _).trans (A_eq0 (R3 m) c 0))
    · exact (W4_arr m c 1).trans (((dat0 (R3 m) c).arrAt_in 1 rfl _).trans (A_eq0 (R3 m) c 1))
    · exact absurd rfl hb
  · exact W4_of_ne m c b fun w e => h ⟨w, e⟩

theorem W7_keep (c : Dev nD) (b : Ref sig .tc) (hb : b ≠ main_v50) : W7 m c (Proc.devRef .tc b) = W6 m c (Proc.devRef .tc b) := by
  by_cases h : ∃ w, Pipeline.arrRef spec1 w = b
  · obtain ⟨w, rfl⟩ := h
    fin_cases w
    · exact (W7_arr m c 0).trans (((dat1 (R6 m) c).arrAt_in 0 rfl _).trans (A_eq1 (R6 m) c 0))
    · exact (W7_arr m c 1).trans (((dat1 (R6 m) c).arrAt_in 1 rfl _).trans (A_eq1 (R6 m) c 1))
    · exact absurd rfl hb
  · exact W7_of_ne m c b fun w e => h ⟨w, e⟩

theorem W9_keep (c : Dev nD) (b : Ref sig .tc) (hb : b ≠ main_v72) : W9 m c (Proc.devRef .tc b) = W8 m c (Proc.devRef .tc b) := by
  by_cases h : ∃ w, Pipeline.arrRef spec2 w = b
  · obtain ⟨w, rfl⟩ := h
    fin_cases w
    · exact (W9_arr m c 0).trans (((dat2 (R8 m) c).arrAt_in 0 rfl _).trans (A_eq2 (R8 m) c 0))
    · exact (W9_arr m c 1).trans (((dat2 (R8 m) c).arrAt_in 1 rfl _).trans (A_eq2 (R8 m) c 1))
    · exact absurd rfl hb
  · exact W9_of_ne m c b fun w e => h ⟨w, e⟩

/-! What each host stretch leaves unchanged: every buffer it does not write. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W10_of (c : Dev nD) (r : Ref sig .tc) (h : r ∉ hostOps3_W) : W10 m c r = W9 m c r :=
  StableHlo.after_of_writes_sub hostOps3 _ hostOps3_writes h

/-- A buffer that no host operation writes and that is no region's result ends as launched. -/
theorem W10_kept (c : Dev nD) (r : Ref sig .tc)
    (h0 : r ∉ hostOps0_W) (h1 : r ∉ hostOps0_1_W) (h2 : r ∉ hostOps0_2_W) (h3 : r ≠ main_v32) (h4 : r ∉ hostOps1_W)
    (h5 : r ∉ hostOps1_1_W) (h6 : r ≠ main_v50) (h7 : r ∉ hostOps2_W) (h8 : r ≠ main_v72) (h9 : r ∉ hostOps3_W) :
    W10 m c r = m ((c : Thread nD τ).loc r) :=
  (W10_of m c r h9).trans <| (W9_keep m c r h8).trans <| (W8_of m c r h7).trans <| (W7_keep m c r h6).trans <|
    (W6_of m c r h5).trans <| (W5_of m c r h4).trans <| (W4_keep m c r h3).trans <| (W3_of m c r h2).trans <|
    (W2_of m c r h1).trans <| (W1_of m c r h0).trans rfl

end Cert.Kernel.Hand

end
-- ==== Proof.KRun.lean ====
/- The whole run: the program's items as segments from the launch to the return, each host stretch from the
   contents before it, each pipeline region from its proof data; every weakly fair execution terminates with every
   unscoped buffer at the contents the fold computes. -/
import proofs.«425442_j15298673508536_2_alg».proof.Proof.Gen.Kernel.Launch
import proofs.«425442_j15298673508536_2_alg».proof.Proof.Gen.Kernel.Skeleton
import proofs.«425442_j15298673508536_2_alg».proof.Proof.Gen.Kernel.Points
import proofs.«425442_j15298673508536_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every region's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (R3 m) c
  | ⟨1, _⟩ => fun c => dat1 (R6 m) c
  | ⟨2, _⟩ => fun c => dat2 (R8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What the launch hands the pooling region is the class invariant, and back. -/
theorem in_regroup2 (c : Dev nD) :
    iprop((∃ r, prngReg c r) ∗ Pipeline.prefHeld (pcfgs (F := F) 2).pre c (fun _ => fullShare) (adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
theorem out_regroup2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- The last thread state without the owes. -/
abbrev Tₙ (c : Dev nD) : sProp 𝕄 := iprop(StableHlo.held (c : Thread nD τ) (Pipeline.ucRefs τ sig) (W10 m c) ∗ ∃ r, prngReg c r)

set_option backward.isDefEq.respectTransparency.types false in
/-- Region 0 over the thread state: entered with every unscoped buffer at the contents before it, left with them
    at the contents after it; its arrays split out of the unscoped buffers and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (R3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R3 m c) (R4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it; its arrays split out of the unscoped buffers and put back at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (R6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R6 m c) (R7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it; its arrays split out of the unscoped buffers and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (R8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (R8 m) c).Φ 0 from rfl]
    exact (in_regroup2 c).trans (hin2 (R8 m) c)
  hout c := by
    rw [Pipeline.ownSems0_none, show (pdats m 2 c).Φ (Fin.last _) = (dat2 (R8 m) c).Φ (Fin.last cfg2.N) from rfl]
    exact (hout2 (R8 m) c).trans (out_regroup2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R8 m c) (R9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's ten items in order. -/
abbrev segsL : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m),
    .host (hseg hostOps3 hostOps3_sub hostOps3_fresh (W9 m)) ]

/-- The last stretch's state regrouped: the buffers and the generator register, beside nothing owed. -/
theorem fin_regroup (c : Dev nD) :
    iprop(StableHlo.held (c : Thread nD τ) (Pipeline.ucRefs τ sig) (W10 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution terminates, nothing faulting, and every final
    state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) adm (pdats m) () cellOf_inj emb₁ defs₀ 𝒱₀ L lv m ρ main
    (fun _ => segsL m)
    (fun c Q => by
      rewrite [main_chain c, Seg.run_eq_chain,
        show (segsL m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segsL, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, fin_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_kept m c main_arg0 (by decide) (by decide) (by decide) (by decide) (by decide) (by decide) (by decide) (by decide) (by decide) (by decide)),
     (h c _ (mem_uc main_arg1 (by decide))).trans (W10_kept m c main_arg1 (by decide) (by decide) (by decide) (by decide) (by decide) (by decide) (by decide) (by decide) (by decide) (by decide)),
     (h c _ (mem_uc main_arg2 (by decide))).trans (W10_kept m c main_arg2 (by decide) (by decide) (by decide) (by decide) (by decide) (by decide) (by decide) (by decide) (by decide) (by decide)),
     (h c _ (mem_uc main_arg3 (by decide))).trans (W10_kept m c main_arg3 (by decide) (by decide) (by decide) (by decide) (by decide) (by decide) (by decide) (by decide) (by decide) (by decide)),
     (h c _ (mem_uc main_arg4 (by decide))).trans (W10_kept m c main_arg4 (by decide) (by decide) (by decide) (by decide) (by decide) (by decide) (by decide) (by decide) (by decide) (by decide)),
     (h c _ (mem_uc main_arg5 (by decide))).trans (W10_kept m c main_arg5 (by decide) (by decide) (by decide) (by decide) (by decide) (by decide) (by decide) (by decide) (by decide) (by decide)),
     (h c _ (mem_uc main_arg6 (by decide))).trans (W10_kept m c main_arg6 (by decide) (by decide) (by decide) (by decide) (by decide) (by decide) (by decide) (by decide) (by decide) (by decide)),
     (h c _ (mem_uc main_arg7 (by decide))).trans (W10_kept m c main_arg7 (by decide) (by decide) (by decide) (by decide) (by decide) (by decide) (by decide) (by decide) (by decide) (by decide)),
     (h c _ (mem_uc main_arg8 (by decide))).trans (W10_kept m c main_arg8 (by decide) (by decide) (by decide) (by decide) (by decide) (by decide) (by decide) (by decide) (by decide) (by decide))⟩)
    (run_all m ρ)

end Cert.Kernel.Hand

end
-- ==== Proof.Reg0.lean ====
/- A row-tiled matrix product as one pipeline region: at grid point t the body multiplies the t-th block of
   5000 rows of the left operand by the whole 128x128 right operand and stores the product as the t-th block of
   rows of the result. Stated at a parameter V, the buffer contents the region is entered from. -/
import proofs.«425442_j15298673508536_2_alg».proof.Proof.Gen.KernelIdeal.Launch
import proofs.«425442_j15298673508536_2_alg».proof.Proof.Gen.KernelIdeal.Skeleton
import proofs.«425442_j15298673508536_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0

/-- The product block the body stores, from the two operand blocks. -/
def out0_2 (x0 : Vec F S5000x128 .f32) (x1 : Vec F S128x128 .f32) : Vec F S5000x128 .f32 :=
  View.canon [⟨rA0, k0_pay1 (View.ld x0 rA0) (View.ld x1 rB0)⟩]

theorem cover0_2 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The body on whole staging buffers: the operands stay, the result buffer ends at the product block. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: arrays as entered; each operand's buffer keeps its block; the result buffer holds the
    product of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.Reg1.lean ====
/- A row-tiled matrix product as one pipeline region: at grid point t the body multiplies the t-th block of
   5000 rows of the left operand by the whole 128x128 right operand and stores the product as the t-th block of
   rows of the result. Stated at a parameter V, the buffer contents the region is entered from. -/
import proofs.«425442_j15298673508536_2_alg».proof.Proof.Gen.KernelIdeal.Launch
import proofs.«425442_j15298673508536_2_alg».proof.Proof.Gen.KernelIdeal.Skeleton
import proofs.«425442_j15298673508536_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0

/-- The product block the body stores, from the two operand blocks. -/
def out1_2 (x0 : Vec F S5000x128 .f32) (x1 : Vec F S128x128 .f32) : Vec F S5000x128 .f32 :=
  View.canon [⟨rA1, k1_pay1 (View.ld x0 rA1) (View.ld x1 rB1)⟩]

theorem cover1_2 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 1000000 in
/-- The body on whole staging buffers: the operands stay, the result buffer ends at the product block. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data: arrays as entered; each operand's buffer keeps its block; the result buffer holds the
    product of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.Reg2.lean ====
/- The pooling region: at grid point t the body adds, into a 512x128 accumulator kept in scratch memory across the
   grid, the product of the transposed one-hot matrix of the t-th block of 5000 segment ids with the t-th block of
   5000 feature rows; the accumulator is zeroed at the first point and copied to the result at the last. Stated
   at a parameter V, the buffer contents the region is entered from. -/
import proofs.«425442_j15298673508536_2_alg».proof.Proof.Gen.KernelIdeal.Launch
import proofs.«425442_j15298673508536_2_alg».proof.Proof.Gen.KernelIdeal.Skeleton
import proofs.«425442_j15298673508536_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem hz2 : (![0, 0] : Fin 2 → Nat) = fun _ => 0 := funext fun a => by fin_cases a <;> rfl

/-- The first branch condition of the body (is this the first point?), from the grid coordinates. -/
abbrev cond2_0 (i : grid2.Coords) : Prop := (Scalar.cmpi .ne (Scalar.extui (Scalar.cmpi .eq (BitVec.ofNat 32 (i 0).val) 0#32)) 0#32) = 1#1
/-- The second branch condition of the body (is this the last point?). -/
abbrev cond2_1 (i : grid2.Coords) : Prop := k2_cond2 i = 1#1

/-- The first condition holds at point 0 only: decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)
/-- The second condition holds at point 19 only: decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-- The rectangle through which the body loads and stores the whole accumulator. -/
abbrev rS2 : Rect S512x128 := Rect.unit (s := S512x128) ![0, 0] S512x128.size inb_S512x128_S512x128_0_0

/-- A list of stores whose last is through the whole-shape rectangle covers the shape. -/
theorem cover2_S (p0 : Vec F S512x128 .f32) (L : List (View.Piece (Elt F) S512x128 .f32)) (y : S512x128.Idx) :
    ∃ pc ∈ ((⟨rS2, p0⟩ : View.Piece (Elt F) S512x128 .f32) :: L), y ∈ pc.1.set :=
  ⟨_, List.mem_cons_self, View.mem_set_unit_zero hz2 inb_S512x128_S512x128_0_0 y⟩
set_option maxHeartbeats 1000000 in
/-- The body at the first point, on whole buffers: the accumulator, found at anything, is zeroed and then receives the
    point's product; the two operand blocks stay and the result buffer is handed back as found. -/
theorem sound_kernel2_A (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : cond2_0 i) (hc1 : ¬cond2_1 i)
    (x0 : Vec F S5000x128 .f32) (x1 : Vec F S5000x1 .i32) (xi : Vec F S512x128 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k2_pay2 x1 x0 (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_S _ _)]
  rw [View.canon_cons_unit_zero (S := S512x128) hz2]
  sl_unfold_words
  rw [View.readCov_unit_zero (S := S512x128) _ hz2]
  simp only [View.readAt_eq_ld, View.ld_unit_zero (S := S5000x1) hz2, View.ld_unit_zero (S := S5000x128) hz2]

set_option maxHeartbeats 1000000 in
/-- The body at a point that is neither first nor last: the accumulator receives the point's product over what the
    point before left; the two operand blocks stay and the result buffer is handed back as found. -/
theorem sound_kernel2_B (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : ¬cond2_0 i) (hc1 : ¬cond2_1 i)
    (x0 : Vec F S5000x128 .f32) (x1 : Vec F S5000x1 .i32) (xi : Vec F S512x128 .f32) (xs : Vec F S512x128 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover2_S _ _)]
  rw [View.canon_cons_unit_zero (S := S512x128) hz2]
  simp only [View.readAt_eq_ld, View.ld_unit_zero (S := S5000x1) hz2, View.ld_unit_zero (S := S5000x128) hz2, View.ld_unit_zero (S := S512x128) hz2]

set_option maxHeartbeats 1000000 in
/-- The body at the last point: the accumulator receives the point's product over what the point before left, and is
    then copied into the result buffer, found at anything. -/
theorem sound_kernel2_C (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S512x128 .f32) (harg3 : arg3.IsWhole) (arg4 : Memref sig .tc .vmem S512x128 .f32) (harg4 : arg4.IsWhole)
    (hc0 : ¬cond2_0 i) (hc1 : cond2_1 i)
    (x0 : Vec F S5000x128 .f32) (x1 : Vec F S5000x1 .i32) (xs : Vec F S512x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k2_pay2 x1 x0 xs) ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover2_S _ _), View.canon_cons_unit_zero (S := S512x128) hz2]
    sl_unfold_words
    rw [View.readCov_unit_zero (S := S512x128) _ hz2]
    simp only [View.readAt_eq_ld, View.ld_unit_zero (S := S5000x1) hz2, View.ld_unit_zero (S := S5000x128) hz2, View.ld_unit_zero (S := S512x128) hz2]
  iexists _; isplitr
  swap; · iexact HS
  ipureintro
  sl_unfold_words
  rw [View.read_writes_eq_canon _ _ _ (cover2_S _ _), View.canon_cons_unit_zero (S := S512x128) hz2]
  simp only [View.readAt_eq_ld, View.ld_unit_zero (S := S5000x1) hz2, View.ld_unit_zero (S := S5000x128) hz2, View.ld_unit_zero (S := S512x128) hz2]

section Region
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of feature rows is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of segment ids is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The accumulator after point n: the partial sums over the first n + 1 row blocks. -/
def accAt2 (c : Dev nD) : (n : ℕ) → n < cfg2.N → Vec F S512x128 .f32
  | 0, hn => k2_pay2 (iblk2 V c 1 ⟨0, hn⟩) (iblk2 V c 0 ⟨0, hn⟩) (k2_pay1 (F := F))
  | n + 1, hn => k2_pay2 (iblk2 V c 1 ⟨n + 1, hn⟩) (iblk2 V c 0 ⟨n + 1, hn⟩) (accAt2 c n (Nat.lt_of_succ_lt hn))

theorem accAt2_zero (c : Dev nD) (hn : 0 < cfg2.N) :
    accAt2 V c 0 hn = k2_pay2 (iblk2 V c 1 ⟨0, hn⟩) (iblk2 V c 0 ⟨0, hn⟩) (k2_pay1 (F := F)) := rfl
theorem accAt2_succ (c : Dev nD) (n : ℕ) (hn : n + 1 < cfg2.N) :
    accAt2 V c (n + 1) hn = k2_pay2 (iblk2 V c 1 ⟨n + 1, hn⟩) (iblk2 V c 0 ⟨n + 1, hn⟩) (accAt2 V c n (Nat.lt_of_succ_lt hn)) := rfl

/-- At the first point the accumulator ends at the point's product over zeros. -/
theorem accAt2_first (c : Dev nD) (t : Fin cfg2.N) (h : t.val = 0) :
    accAt2 V c t.val t.isLt = k2_pay2 (iblk2 V c 1 t) (iblk2 V c 0 t) (k2_pay1 (F := F)) := by
  obtain ⟨n, hn⟩ := t
  cases n with
  | zero => rfl
  | succ n => exact absurd h (Nat.succ_ne_zero _)

/-- At a later point it ends at the point's product over what the point before left. -/
theorem accAt2_next (c : Dev nD) (t : Fin cfg2.N) (h : t.val ≠ 0) :
    accAt2 V c t.val t.isLt
      = k2_pay2 (iblk2 V c 1 t) (iblk2 V c 0 t) (accAt2 V c (t.val - 1) (Nat.lt_of_le_of_lt (Nat.sub_le _ _) t.isLt)) := by
  obtain ⟨n, hn⟩ := t
  cases n with
  | zero => exact absurd rfl h
  | succ n => rfl

/-- The accumulator, a whole scoped buffer the body is passed beside the windows. -/
abbrev scM2 : Memref sig .tc .vmem S512x128 .f32 := Memref.whole cc2_scratch0

/-- Every scoped buffer of the core that is neither a staging buffer of this region nor the accumulator, each whole
    at some contents: carried unopened. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator split off as a memref owned at some contents. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [scM2, owns_whole, bigSepL_singleton]; try rfl

/-- The region invariant before position n: at first the accumulator holds anything; afterwards the partial sums. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ others2 (F := F) c) ∗ (∃ r, prngReg c r)) := by
  cases n with
  | zero => exact absurd rfl hz
  | succ n => rfl

/-- The region's proof data: arrays as entered; each operand's buffer keeps its block; the result buffer, consulted at
    the last point only, holds the accumulated sums; the invariant carries the accumulator at the partial sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- Off the last point the result window is idle and not written back; at the last point it is live. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the operand buffers hold their blocks; the point is the first, the last, or neither, which
    selects the body's triple; the invariant hands the body the accumulator at what the point before left (at anything
    at the first point) and takes it back at this point's partial sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  have hN : t.val < 20 := lt_of_lt_of_eq t.isLt (show cfg2.N = 20 from N_2)
  by_cases h0 : t.val % 20 = 0
  · have hz : t.val = 0 := by omega
    have h1 : ¬t.val % 20 = 19 := by omega
    rw [Dat.leavesExact_idle (dat2 V c) 2 t (idleAt2_2 t (fun h => h1 ((hcond2_1 t).mp h))) (noFlush2_2 t (fun h => h1 ((hcond2_1 t).mp h)))]
    rw [accAt2_first V c t hz]
    rw [PhiS2_castSucc V c t, PhiS2_zero V c _ _ hz, PhiA2_eq]
    iintro ⟨⟨⟨HS, HR⟩, Hg⟩, Ho, ⟨%d0, H0⟩, ⟨%d1, H1⟩, ⟨%d2, H2⟩⟩
    iapply (sound_kernel2_A c Set.univ _ _ _ _ _ _ _ _ _ ((hcond2_0 t).mpr h0) (fun h => h1 ((hcond2_1 t).mp h)) (iblk2 V c 0 t) (iblk2 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hz : t.val ≠ 0 := fun h => h0 (by rw [h])
    by_cases h1 : t.val % 20 = 19
    · rw [show (dat2 V c).leavesExact 2 t = owns (c : Thread nD τ) (st2_2 t) fullShare ((dat2 V c).after 2 t) from by
        unfold Dat.leavesExact; rw [liveAt2_2 t ((hcond2_1 t).mpr h1)], after2_2]
      rw [accAt2_next V c t hz]
      rw [PhiS2_castSucc V c t, PhiS2_pos V c _ _ hz]
      iintro ⟨⟨⟨HS, HR⟩, Hg⟩, Ho, ⟨%d0, H0⟩, ⟨%d1, H1⟩, ⟨%d2, H2⟩⟩
      iapply (sound_kernel2_C c Set.univ _ _ _ _ _ _ _ _ _ (fun h => h0 ((hcond2_0 t).mp h)) ((hcond2_1 t).mpr h1) (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t (fun h => h1 ((hcond2_1 t).mp h)))]
      rw [accAt2_next V c t hz]
      rw [PhiS2_castSucc V c t, PhiS2_pos V c _ _ hz]
      iintro ⟨⟨⟨HS, HR⟩, Hg⟩, Ho, ⟨%d0, H0⟩, ⟨%d1, H1⟩, ⟨%d2, H2⟩⟩
      iapply (sound_kernel2_B c Set.univ _ _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitr [Hg]
  · isplitl [HS]
    · iexists _; iexact HS
    iexact HR
  iexact Hg

theorem hout2 (c : Dev nD) : (dat2 V c).Φ (Fin.last cfg2.N) ⊢ Pipeline.ΦA spec2 c :=
  Phi_out2 V c _ (by rw [Fin.val_last]; have : cfg2.N = 20 := N_2; omega)

end Region

end Cert.KernelIdeal.Hand

end
-- ==== Proof.Fold.lean ====
/- The buffer contents between the items of the program, as a fold from the launch memory: a stretch of host
   operations applies them in order; a pipeline region replaces the arrays of its windows by what its write-backs
   leave (the inputs as entered, the result at the blocks written) and changes nothing else. -/
import proofs.«425442_j15298673508536_2_alg».proof.Proof.Gen.KernelIdeal.Launch
import proofs.«425442_j15298673508536_2_alg».proof.Proof.Gen.KernelIdeal.Skeleton
import proofs.«425442_j15298673508536_2_alg».proof.Proof.Gen.KernelIdeal.Points
import proofs.«425442_j15298673508536_2_alg».proof.Proof.Gen.KernelIdeal.Regions
import proofs.«425442_j15298673508536_2_alg».proof.Proof.Reg0
import proofs.«425442_j15298673508536_2_alg».proof.Proof.Reg1
import proofs.«425442_j15298673508536_2_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the three host stretches before the first matrix product. -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- The same read at the core's own references: what the first region's proof data take. -/
abbrev R3 : (c : Dev nD) → (b : Ref sig .tc) → Buf (Elt F) ((c : Thread nD τ).loc b) := fun c b => W3 m c b
/-- After the first matrix product. -/
def W4 (c : Dev nD) : Valuation τ sig (Elt F) :=
  Pipeline.withArrays spec0 c (W3 m c) fun w => (dat0 (R3 m) c).arrAt w cfg0.N
abbrev W5 (c : Dev nD) : Valuation τ sig (Elt F) := StableHlo.after hostOps1 (W4 m c)
abbrev W6 (c : Dev nD) : Valuation τ sig (Elt F) := StableHlo.after hostOps1_1 (W5 m c)
abbrev R6 : (c : Dev nD) → (b : Ref sig .tc) → Buf (Elt F) ((c : Thread nD τ).loc b) := fun c b => W6 m c b
/-- After the second matrix product. -/
def W7 (c : Dev nD) : Valuation τ sig (Elt F) :=
  Pipeline.withArrays spec1 c (W6 m c) fun w => (dat1 (R6 m) c).arrAt w cfg1.N
abbrev W8 (c : Dev nD) : Valuation τ sig (Elt F) := StableHlo.after hostOps2 (W7 m c)
abbrev R8 : (c : Dev nD) → (b : Ref sig .tc) → Buf (Elt F) ((c : Thread nD τ).loc b) := fun c b => W8 m c b
/-- After the pooling region. -/
def W9 (c : Dev nD) : Valuation τ sig (Elt F) :=
  Pipeline.withArrays spec2 c (W8 m c) fun w => (dat2 (R8 m) c).arrAt w cfg2.N
/-- At the end. -/
abbrev W10 (c : Dev nD) : Valuation τ sig (Elt F) := StableHlo.after hostOps3 (W9 m c)

theorem W4_arr (c : Dev nD) (w : Fin cfg0.W) :
    W4 m c (Proc.devRef .tc (Pipeline.arrRef spec0 w)) = (dat0 (R3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev R4 : (c : Dev nD) → (b : Ref sig .tc) → Buf (Elt F) ((c : Thread nD τ).loc b) := fun c b => W4 m c b
theorem hF0 (c : Dev nD) (w : Fin cfg0.W) : (dat0 (R3 m) c).arrAt w cfg0.N = R4 m c (Pipeline.arrRef spec0 w) :=
  (W4_arr m c w).symm
theorem hrest0 (c : Dev nD) : ∀ b, b ∉ Finset.univ.image (Pipeline.arrRef spec0) → R4 m c b = R3 m c b :=
  fun b hb => W4_of_ne m c b fun w e => hb (Finset.mem_image.mpr ⟨w, Finset.mem_univ _, e⟩)

theorem W7_arr (c : Dev nD) (w : Fin cfg1.W) :
    W7 m c (Proc.devRef .tc (Pipeline.arrRef spec1 w)) = (dat1 (R6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev R7 : (c : Dev nD) → (b : Ref sig .tc) → Buf (Elt F) ((c : Thread nD τ).loc b) := fun c b => W7 m c b
theorem hF1 (c : Dev nD) (w : Fin cfg1.W) : (dat1 (R6 m) c).arrAt w cfg1.N = R7 m c (Pipeline.arrRef spec1 w) :=
  (W7_arr m c w).symm
theorem hrest1 (c : Dev nD) : ∀ b, b ∉ Finset.univ.image (Pipeline.arrRef spec1) → R7 m c b = R6 m c b :=
  fun b hb => W7_of_ne m c b fun w e => hb (Finset.mem_image.mpr ⟨w, Finset.mem_univ _, e⟩)

theorem W9_arr (c : Dev nD) (w : Fin cfg2.W) :
    W9 m c (Proc.devRef .tc (Pipeline.arrRef spec2 w)) = (dat2 (R8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev R9 : (c : Dev nD) → (b : Ref sig .tc) → Buf (Elt F) ((c : Thread nD τ).loc b) := fun c b => W9 m c b
theorem hF2 (c : Dev nD) (w : Fin cfg2.W) : (dat2 (R8 m) c).arrAt w cfg2.N = R9 m c (Pipeline.arrRef spec2 w) :=
  (W9_arr m c w).symm
theorem hrest2 (c : Dev nD) : ∀ b, b ∉ Finset.univ.image (Pipeline.arrRef spec2) → R9 m c b = R8 m c b :=
  fun b hb => W9_of_ne m c b fun w e => hb (Finset.mem_image.mpr ⟨w, Finset.mem_univ _, e⟩)

/-! A region changes only the array of its result window. -/

theorem W4_keep (c : Dev nD) (b : Ref sig .tc) (hb : b ≠ main_v32) : W4 m c (Proc.devRef .tc b) = W3 m c (Proc.devRef .tc b) := by
  by_cases h : ∃ w, Pipeline.arrRef spec0 w = b
  · obtain ⟨w, rfl⟩ := h
    fin_cases w
    · exact (W4_arr m c 0).trans (((dat0 (R3 m) c).arrAt_in 0 rfl _).trans (A_eq0 (R3 m) c 0))
    · exact (W4_arr m c 1).trans (((dat0 (R3 m) c).arrAt_in 1 rfl _).trans (A_eq0 (R3 m) c 1))
    · exact absurd rfl hb
  · exact W4_of_ne m c b fun w e => h ⟨w, e⟩

theorem W7_keep (c : Dev nD) (b : Ref sig .tc) (hb : b ≠ main_v50) : W7 m c (Proc.devRef .tc b) = W6 m c (Proc.devRef .tc b) := by
  by_cases h : ∃ w, Pipeline.arrRef spec1 w = b
  · obtain ⟨w, rfl⟩ := h
    fin_cases w
    · exact (W7_arr m c 0).trans (((dat1 (R6 m) c).arrAt_in 0 rfl _).trans (A_eq1 (R6 m) c 0))
    · exact (W7_arr m c 1).trans (((dat1 (R6 m) c).arrAt_in 1 rfl _).trans (A_eq1 (R6 m) c 1))
    · exact absurd rfl hb
  · exact W7_of_ne m c b fun w e => h ⟨w, e⟩

theorem W9_keep (c : Dev nD) (b : Ref sig .tc) (hb : b ≠ main_v72) : W9 m c (Proc.devRef .tc b) = W8 m c (Proc.devRef .tc b) := by
  by_cases h : ∃ w, Pipeline.arrRef spec2 w = b
  · obtain ⟨w, rfl⟩ := h
    fin_cases w
    · exact (W9_arr m c 0).trans (((dat2 (R8 m) c).arrAt_in 0 rfl _).trans (A_eq2 (R8 m) c 0))
    · exact (W9_arr m c 1).trans (((dat2 (R8 m) c).arrAt_in 1 rfl _).trans (A_eq2 (R8 m) c 1))
    · exact absurd rfl hb
  · exact W9_of_ne m c b fun w e => h ⟨w, e⟩

/-! What each host stretch leaves unchanged: every buffer it does not write. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W10_of (c : Dev nD) (r : Ref sig .tc) (h : r ∉ hostOps3_W) : W10 m c r = W9 m c r :=
  StableHlo.after_of_writes_sub hostOps3 _ hostOps3_writes h

/-- A buffer that no host operation writes and that is no region's result ends as launched. -/
theorem W10_kept (c : Dev nD) (r : Ref sig .tc)
    (h0 : r ∉ hostOps0_W) (h1 : r ∉ hostOps0_1_W) (h2 : r ∉ hostOps0_2_W) (h3 : r ≠ main_v32) (h4 : r ∉ hostOps1_W)
    (h5 : r ∉ hostOps1_1_W) (h6 : r ≠ main_v50) (h7 : r ∉ hostOps2_W) (h8 : r ≠ main_v72) (h9 : r ∉ hostOps3_W) :
    W10 m c r = m ((c : Thread nD τ).loc r) :=
  (W10_of m c r h9).trans <| (W9_keep m c r h8).trans <| (W8_of m c r h7).trans <| (W7_keep m c r h6).trans <|
    (W6_of m c r h5).trans <| (W5_of m c r h4).trans <| (W4_keep m c r h3).trans <| (W3_of m c r h2).trans <|
    (W2_of m c r h1).trans <| (W1_of m c r h0).trans rfl

end Cert.KernelIdeal.Hand

end
-- ==== Proof.Run.lean ====
/- The whole run: the program's items as segments from the launch to the return, each host stretch from the
   contents before it, each pipeline region from its proof data; every weakly fair execution terminates with every
   unscoped buffer at the contents the fold computes. -/
import proofs.«425442_j15298673508536_2_alg».proof.Proof.Gen.KernelIdeal.Launch
import proofs.«425442_j15298673508536_2_alg».proof.Proof.Gen.KernelIdeal.Skeleton
import proofs.«425442_j15298673508536_2_alg».proof.Proof.Gen.KernelIdeal.Points
import proofs.«425442_j15298673508536_2_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every region's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (R3 m) c
  | ⟨1, _⟩ => fun c => dat1 (R6 m) c
  | ⟨2, _⟩ => fun c => dat2 (R8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What the launch hands the pooling region is the class invariant, and back. -/
theorem in_regroup2 (c : Dev nD) :
    iprop((∃ r, prngReg c r) ∗ Pipeline.prefHeld (pcfgs (F := F) 2).pre c (fun _ => fullShare) (adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
theorem out_regroup2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- The last thread state without the owes. -/
abbrev Tₙ (c : Dev nD) : sProp 𝕄 := iprop(StableHlo.held (c : Thread nD τ) (Pipeline.ucRefs τ sig) (W10 m c) ∗ ∃ r, prngReg c r)

set_option backward.isDefEq.respectTransparency.types false in
/-- Region 0 over the thread state: entered with every unscoped buffer at the contents before it, left with them
    at the contents after it; its arrays split out of the unscoped buffers and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (R3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R3 m c) (R4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them
    at the contents after it; its arrays split out of the unscoped buffers and put back at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (R6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R6 m c) (R7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them
    at the contents after it; its arrays split out of the unscoped buffers and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (R8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (R8 m) c).Φ 0 from rfl]
    exact (in_regroup2 c).trans (hin2 (R8 m) c)
  hout c := by
    rw [Pipeline.ownSems0_none, show (pdats m 2 c).Φ (Fin.last _) = (dat2 (R8 m) c).Φ (Fin.last cfg2.N) from rfl]
    exact (hout2 (R8 m) c).trans (out_regroup2 c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R8 m c) (R9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's ten items in order. -/
abbrev segsL : List (Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .region (reg2 m),
    .host (hseg hostOps3 hostOps3_sub hostOps3_fresh (W9 m)) ]

/-- The last stretch's state regrouped: the buffers and the generator register, beside nothing owed. -/
theorem fin_regroup (c : Dev nD) :
    iprop(StableHlo.held (c : Thread nD τ) (Pipeline.ucRefs τ sig) (W10 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution terminates, nothing faulting, and every final
    state holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) adm (pdats m) () cellOf_inj emb₁ defs₀ 𝒱₀ L lv m ρ main
    (fun _ => segsL m)
    (fun c Q => by
      rewrite [main_chain c, Seg.run_eq_chain,
        show (segsL m).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segsL, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, fin_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W10_kept m c main_arg0 (by decide) (by decide) (by decide) (by decide) (by decide) (by decide) (by decide) (by decide) (by decide) (by decide)),
     (h c _ (mem_uc main_arg1 (by decide))).trans (W10_kept m c main_arg1 (by decide) (by decide) (by decide) (by decide) (by decide) (by decide) (by decide) (by decide) (by decide) (by decide)),
     (h c _ (mem_uc main_arg2 (by decide))).trans (W10_kept m c main_arg2 (by decide) (by decide) (by decide) (by decide) (by decide) (by decide) (by decide) (by decide) (by decide) (by decide)),
     (h c _ (mem_uc main_arg3 (by decide))).trans (W10_kept m c main_arg3 (by decide) (by decide) (by decide) (by decide) (by decide) (by decide) (by decide) (by decide) (by decide) (by decide)),
     (h c _ (mem_uc main_arg4 (by decide))).trans (W10_kept m c main_arg4 (by decide) (by decide) (by decide) (by decide) (by decide) (by decide) (by decide) (by decide) (by decide) (by decide)),
     (h c _ (mem_uc main_arg5 (by decide))).trans (W10_kept m c main_arg5 (by decide) (by decide) (by decide) (by decide) (by decide) (by decide) (by decide) (by decide) (by decide) (by decide)),
     (h c _ (mem_uc main_arg6 (by decide))).trans (W10_kept m c main_arg6 (by decide) (by decide) (by decide) (by decide) (by decide) (by decide) (by decide) (by decide) (by decide) (by decide)),
     (h c _ (mem_uc main_arg7 (by decide))).trans (W10_kept m c main_arg7 (by decide) (by decide) (by decide) (by decide) (by decide) (by decide) (by decide) (by decide) (by decide) (by decide)),
     (h c _ (mem_uc main_arg8 (by decide))).trans (W10_kept m c main_arg8 (by decide) (by decide) (by decide) (by decide) (by decide) (by decide) (by decide) (by decide) (by decide) (by decide))⟩)
    (run_all m ρ)

end Cert.KernelIdeal.Hand

end
-- ==== Proof.MatmulValue.lean ====
/- The value of the two row-tiled matrix products over the extended reals. Each region multiplies a
   100000x128 left operand by a 128x128 right operand, 5000 rows at a time; with exact arithmetic (the narrowing of
   the operands is the identity and the accumulator starts at zero) every entry of a block is the sum over k of
   left(row, k) * right(k, column), which is the entry of the whole product at that row of the whole array; the
   twenty row blocks tile the result, so the result array ends at the whole product. -/
import proofs.«425442_j15298673508536_2_alg».proof.Proof.Reg0
import proofs.«425442_j15298673508536_2_alg».proof.Proof.Reg1
import proofs.«425442_j15298673508536_2_alg».proof.ReferenceIdeal
import proofs.«425442_j15298673508536_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open scoped BigOperators

/-! ## The whole product, entry by entry -/

/-- Entry (row of i, k) of the left operand and entry (k, column of i) of the right operand. -/
abbrev leftAt (i : S100000x128.Idx) (k : Fin 128) : S100000x128.Idx := fun a => match a with
  | ⟨0, _⟩ => ⟨(i 0).val, (i 0).isLt⟩
  | ⟨1, _⟩ => ⟨k.val, k.isLt⟩
abbrev rightAt (i : S100000x128.Idx) (k : Fin 128) : S128x128.Idx := fun a => match a with
  | ⟨0, _⟩ => ⟨k.val, k.isLt⟩
  | ⟨1, _⟩ => ⟨(i 1).val, (i 1).isLt⟩

/-- The product of a 100000x128 matrix by a 128x128 matrix, as the host computes it. -/
abbrev product (X : FVec Ideal S100000x128 .f32) (W : FVec Ideal S128x128 .f32) : FVec Ideal S100000x128 .f32 :=
  Host.dotGeneral (F := Ideal) Cert.ReferenceIdeal.dot_S100000x128_S128x128_S100000x128_1_0_0_1_n_n none X W

theorem refLhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem refLhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem refRhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem refRhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- An entry of the whole product is the sum over k of left(row, k) * right(k, column). -/
theorem product_apply (X : FVec Ideal S100000x128 .f32) (W : FVec Ideal S128x128 .f32) (i : S100000x128.Idx) :
    product X W i = ∑ k : Fin 128, X (leftAt i k) * W (rightAt i k) := by
  unfold product
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = leftAt i k := funext fun a => Fin.ext (by
    match a with
    | ⟨0, _⟩ => exact refLhs_0 _ _
    | ⟨1, _⟩ => exact (refLhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rightAt i k := funext fun a => Fin.ext (by
    match a with
    | ⟨0, _⟩ => exact (refRhs_0 _ _).trans hk
    | ⟨1, _⟩ => exact refRhs_1 _ _)
  rw [el, er]

/-! ## One block of 5000 rows, entry by entry -/

abbrev leftIn (y : S5000x128.Idx) (k : Fin 128) : S5000x128.Idx := fun a => match a with
  | ⟨0, _⟩ => ⟨(y 0).val, (y 0).isLt⟩
  | ⟨1, _⟩ => ⟨k.val, k.isLt⟩
abbrev rightIn (y : S5000x128.Idx) (k : Fin 128) : S128x128.Idx := fun a => match a with
  | ⟨0, _⟩ => ⟨k.val, k.isLt⟩
  | ⟨1, _⟩ => ⟨(y 1).val, (y 1).isLt⟩

theorem blkLhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkLhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blkRhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blkRhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- An entry of the product of a block of rows by the right operand, accumulated from zero with exact
    arithmetic, is the sum over k of left(row, k) * right(k, column). -/
theorem blockProduct_apply (A : FVec Ideal S5000x128 .bf16) (B : FVec Ideal S128x128 .bf16) (y : S5000x128.Idx) :
    FloatOps.matmul (F := Ideal) dot_S5000x128_S128x128_S5000x128_1_0_0_1_n_n none A B (constant (F := Ideal) S5000x128 .f32 0x00000000#32) y
      = ∑ k : Fin 128, A (leftIn y k) * B (rightIn y k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = leftIn y k := funext fun a => Fin.ext (by
    match a with
    | ⟨0, _⟩ => exact blkLhs_0 _ _
    | ⟨1, _⟩ => exact (blkLhs_1 _ _).trans hk)
  have er : dot_S5000x128_S128x128_S5000x128_1_0_0_1_n_n.rhsIdx y ((ValueIdx.contrEquiv1 dot_S5000x128_S128x128_S5000x128_1_0_0_1_n_n 128 rfl rfl).symm k) = rightIn y k := funext fun a => Fin.ext (by
    match a with
    | ⟨0, _⟩ => exact (blkRhs_0 _ _).trans hk
    | ⟨1, _⟩ => exact blkRhs_1 _ _)
  rw [el, er]

/-- The first region's block: the operands narrowed (the identity here) and multiplied into zero. -/
theorem pay0_apply (x0 : Vec Ideal S5000x128 .f32) (x1 : Vec Ideal S128x128 .f32) (y : S5000x128.Idx) :
    k0_pay1 (F := Ideal) x0 x1 y = ∑ k : Fin 128, x0 (leftIn y k) * x1 (rightIn y k) := by
  unfold k0_pay1
  exact blockProduct_apply _ _ y

/-- The second region's block: the same after a reshape to the same shape. -/
theorem pay1_apply (x0 : Vec Ideal S5000x128 .f32) (x1 : Vec Ideal S128x128 .f32) (y : S5000x128.Idx) :
    k1_pay1 (F := Ideal) x0 x1 y = ∑ k : Fin 128, x0 (leftIn y k) * x1 (rightIn y k) := by
  unfold k1_pay1
  simp only [shapeCast_self]
  exact blockProduct_apply _ _ y

/-! ## From the row blocks to the array -/

theorem zero_offsets : (![0, 0] : Fin 2 → Nat) = fun _ => 0 := funext fun a => by fin_cases a <;> rfl

section Arrays
variable (V : (c : Dev nD) → (b : Ref sig .tc) → Buf (Elt Ideal) ((c : Thread nD τ).loc b))

/-! ### The first product -/

/-- At point t the left operand's block and the result's block are row block t; the right operand's block
    is the whole matrix. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the whole product. -/
theorem flushed0_eq (c : Dev nD) (t : Fin cfg0.N) :
    (dat0 (F := Ideal) V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := blocks0 t
  funext y
  show k0_pay1 (iblk0 V c 0 t) (iblk0 V c 1 t) y = product (V c main_arg0) (V c main_arg3) (((cfg0.win 2).blk t).view.emb y)
  rw [pay0_apply, product_apply]
  refine Finset.sum_congr rfl fun k _ => ?_
  have hl : iblk0 V c 0 t (leftIn y k) = V c main_arg0 (leftAt (((cfg0.win 2).blk t).view.emb y) k) := by
    show V c main_arg0 (((cfg0.win 0).blk t).view.emb (leftIn y k)) = _
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hr : iblk0 V c 1 t (rightIn y k) = V c main_arg3 (rightAt (((cfg0.win 2).blk t).view.emb y) k) := by
    show V c main_arg3 (((cfg0.win 1).blk t).view.emb (rightIn y k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [hl, hr]

/-- A row of the array is in point t's block iff it is among rows 5000 t … 5000 t + 4999. -/
theorem mem_rows0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r is in the block of point r / 5000. -/
theorem rows_covered0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have ht : (i 0).val / 5000 < cfg0.N := by omega
  obtain ⟨-, -, -, -, e20, e21⟩ := blocks0 ⟨(i 0).val / 5000, ht⟩
  refine ⟨⟨(i 0).val / 5000, ht⟩, flush0_2 _, ?_⟩
  rw [mem_rows0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e21]; omega

/-- The first result array ends at the whole product of the arrays the region is entered with. -/
theorem mm0_eq (c : Dev nD) : (dat0 (F := Ideal) V c).arrAt 2 cfg0.N = Host.dotGeneral (F := Ideal) (φ₁ := .f32) (φ₂ := .f32) Cert.ReferenceIdeal.dot_S100000x128_S128x128_S100000x128_1_0_0_1_n_n none (V c main_arg0) (V c main_arg3) :=
  (dat0 V c).arrAt_eq_of_cover 2 (product (V c main_arg0) (V c main_arg3)) (fun t _ => flushed0_eq V c t) rows_covered0

/-! ### The second product -/

/-- At point t the left operand's block and the result's block are row block t; the right operand's block
    is the whole matrix. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is row block t of the whole product. -/
theorem flushed1_eq (c : Dev nD) (t : Fin cfg1.N) :
    (dat1 (F := Ideal) V c).flushed 2 t = ((cfg1.win 2).blk t).view.read (Elt Ideal) (product (V c main_v49) (V c main_arg5)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e00, e01, e10, e11, e20, e21⟩ := blocks1 t
  funext y
  show k1_pay1 (iblk1 V c 0 t) (iblk1 V c 1 t) y = product (V c main_v49) (V c main_arg5) (((cfg1.win 2).blk t).view.emb y)
  rw [pay1_apply, product_apply]
  refine Finset.sum_congr rfl fun k _ => ?_
  have hl : iblk1 V c 0 t (leftIn y k) = V c main_v49 (leftAt (((cfg1.win 2).blk t).view.emb y) k) := by
    show V c main_v49 (((cfg1.win 0).blk t).view.emb (leftIn y k)) = _
    refine congrArg _ (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * k.val = k.val; omega
  have hr : iblk1 V c 1 t (rightIn y k) = V c main_arg5 (rightAt (((cfg1.win 2).blk t).view.emb y) k) := by
    show V c main_arg5 (((cfg1.win 1).blk t).view.emb (rightIn y k)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  rw [hl, hr]

/-- A row of the array is in point t's block iff it is among rows 5000 t … 5000 t + 4999. -/
theorem mem_rows1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r is in the block of point r / 5000. -/
theorem rows_covered1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  have ht : (i 0).val / 5000 < cfg1.N := by omega
  obtain ⟨-, -, -, -, e20, e21⟩ := blocks1 ⟨(i 0).val / 5000, ht⟩
  refine ⟨⟨(i 0).val / 5000, ht⟩, flush1_2 _, ?_⟩
  rw [mem_rows1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e21]; omega

/-- The second result array ends at the whole product of the arrays the region is entered with. -/
theorem mm1_eq (c : Dev nD) : (dat1 (F := Ideal) V c).arrAt 2 cfg1.N = Host.dotGeneral (F := Ideal) (φ₁ := .f32) (φ₂ := .f32) Cert.ReferenceIdeal.dot_S100000x128_S128x128_S100000x128_1_0_0_1_n_n none (V c main_v49) (V c main_arg5) :=
  (dat1 V c).arrAt_eq_of_cover 2 (product (V c main_v49) (V c main_arg5)) (fun t _ => flushed1_eq V c t) rows_covered1

end Arrays

end Cert.KernelIdeal.Hand

end
-- ==== Proof.PoolValue.lean ====
/- The value of the pooling region at the ideal instance: the 512x128 result is, at (g, f), the sum of the feature
   entries (r, f) over the rows r whose segment id is g, which is what the host's accumulating scatter of the
   100000 feature rows into a zero 512x128 array along the segment ids computes. -/
import proofs.«425442_j15298673508536_2_alg».proof.Proof.Reg2
import proofs.«425442_j15298673508536_2_alg».proof.ReferenceIdeal
import proofs.«425442_j15298673508536_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.KernelIdeal.Hand

open Cert.KernelIdeal.Gen
open Idealize.ShloMosaic Idealize.ShloMosaic.TcCoe Idealize.SL.Sem
open Idealize.ShloMosaic.Pipeline (Dat Cfg Window)
open Idealize.ShloMosaic.ValueIdx

section Core

variable {M : Type*} [AddCommMonoid M]

/-- A fold that starts at `z + a 0` and adds `a (n + 1)` at step `n + 1` holds, after step `n`, `z` plus the terms
    met so far. -/
theorem pool_fold_eq_sum_range {N : ℕ} (z : M) (a : Fin N → M) (acc : (n : ℕ) → n < N → M)
    (h0 : ∀ h : 0 < N, acc 0 h = z + a ⟨0, h⟩)
    (hs : ∀ (n : ℕ) (h : n + 1 < N), acc (n + 1) h = acc n (Nat.lt_of_succ_lt h) + a ⟨n + 1, h⟩) :
    ∀ (n : ℕ) (h : n < N), acc n h = z + ∑ s ∈ Finset.range (n + 1), if hs : s < N then a ⟨s, hs⟩ else 0
  | 0, h => by rw [h0 h, Finset.sum_range_one, dif_pos h]
  | n + 1, h => by
    rw [hs n h, pool_fold_eq_sum_range z a acc h0 hs n (Nat.lt_of_succ_lt h), Finset.sum_range_succ _ (n + 1), dif_pos h,
      add_assoc]

/-- After the last step it holds `z` plus all the terms. -/
theorem pool_fold_eq_sum {N : ℕ} (z : M) (a : Fin N → M) (acc : (n : ℕ) → n < N → M)
    (h0 : ∀ h : 0 < N, acc 0 h = z + a ⟨0, h⟩)
    (hs : ∀ (n : ℕ) (h : n + 1 < N), acc (n + 1) h = acc n (Nat.lt_of_succ_lt h) + a ⟨n + 1, h⟩)
    (n : ℕ) (h : n < N) (hn : n + 1 = N) : acc n h = z + ∑ t : Fin N, a t := by
  rw [pool_fold_eq_sum_range z a acc h0 hs n h, hn,
    ← Fin.sum_univ_eq_sum_range (fun s => if hs : s < N then a ⟨s, hs⟩ else 0) N]
  exact congrArg (z + ·) (Finset.sum_congr rfl fun t _ => dif_pos t.isLt)

/-- A sum over `B * R` rows is the sum over the `B` blocks of the sums over each block's `R` rows, row `r` of block
    `t` being row `R * t + r`. -/
theorem pool_sum_blocks {N B R : ℕ} (hN : N = B * R) (emb : Fin B → Fin R → Fin N)
    (hemb : ∀ t r, (emb t r).val = R * t.val + r.val) (h : Fin N → M) :
    ∑ t : Fin B, ∑ r : Fin R, h (emb t r) = ∑ i : Fin N, h i := by
  subst hN
  rw [← Equiv.sum_comp finProdFinEquiv h, Fintype.sum_prod_type]
  refine Finset.sum_congr rfl fun t _ => Finset.sum_congr rfl fun r _ => congrArg h (Fin.ext ?_)
  rw [hemb]
  simp only [finProdFinEquiv_apply_val]
  omega

/-- Of the entries `(r, f')` of a matrix, those with `f' = f` and `Q r` sum to the sum over the rows with `Q r` of
    the entries `(r, f)`. -/
theorem pool_sum_col_select {N K : ℕ} (Q : Fin N → Prop) [DecidablePred Q] (f : Fin K) (u : Fin N → Fin K → M) :
    ∑ r : Fin N, ∑ f' : Fin K, (if f' = f ∧ Q r then u r f' else 0) = ∑ r : Fin N, if Q r then u r f else 0 := by
  refine Finset.sum_congr rfl fun r _ => ?_
  by_cases hq : Q r
  · simp only [hq, and_true, if_true]
    rw [Finset.sum_ite_eq' Finset.univ f (u r), if_pos (Finset.mem_univ _)]
  · simp only [hq, and_false, if_false]
    exact Finset.sum_const_zero

end Core

open Idealize.ShloMosaic.StableHlo.Predicate in
/-- An entry of the one-hot matrix: the comparison's bit, widened and read as a float, is 1 where the two words are
    equal and 0 elsewhere. -/
theorem pool_onehot_entry (a b : BitVec 32) :
    (FloatOps.sitofp (F := Ideal) .f32 ((IntOp.cmpi .eq a b).setWidth 32) : EReal) = if a = b then 1 else 0 := by
  by_cases h : a = b
  · rw [if_pos h, cmpi_eq_iff.mpr h]
    show (((((1#1 : BitVec 1).setWidth 32).toInt : ℤ) : ℝ) : EReal) = 1
    rw [show ((1#1 : BitVec 1).setWidth 32).toInt = 1 from by decide]
    simp
  · rw [if_neg h, eq_zero_of_ne_one (mt cmpi_eq_iff.mp h)]
    show (((((0#1 : BitVec 1).setWidth 32).toInt : ℤ) : ℝ) : EReal) = 0
    rw [show ((0#1 : BitVec 1).setWidth 32).toInt = 0 from by decide]
    simp

/-! The operand indices of the pooling product at an output index and a contraction position: the one-hot matrix is
    read at (row, segment), the features at (row, feature). -/
theorem lhs_pool_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhs_pool_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhs_pool_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhs_pool_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- One point's step at an entry: the accumulator's entry (g, f) gains the feature entries (r, f) of the block's rows r
    whose segment id is the word g. -/
theorem pool_pay2_apply (ids : Vec Ideal S5000x1 .i32) (x : Vec Ideal S5000x128 .f32) (acc : Vec Ideal S512x128 .f32)
    (g : Fin 512) (f : Fin 128) :
    k2_pay2 (F := Ideal) ids x acc (ix2 g f)
      = acc (ix2 g f) + ∑ r : Fin 5000, if BitVec.ofNat 32 g.val = ids (ix2 r (0 : Fin 1)) then x (ix2 r f) else 0 := by
  unfold k2_pay2
  simp only [shapeCast_self]
  rw [addf_apply]
  simp only [matmul]
  rw [Ideal.matmul_constant_zero_apply, ← Equiv.sum_comp (contrEquiv1 dot_S5000x512_S5000x128_S512x128_0_0_1_1_n_n 5000 rfl rfl).symm]
  refine congrArg (acc (ix2 g f) + ·) (Finset.sum_congr rfl fun k _ => ?_)
  have hk := contrEquiv1_symm_val dot_S5000x512_S5000x128_S512x128_0_0_1_1_n_n 5000 rfl rfl k
  have el : dot_S5000x512_S5000x128_S512x128_0_0_1_1_n_n.lhsIdx (ix2 g f) ((contrEquiv1 dot_S5000x512_S5000x128_S512x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x512_S5000x128_S512x128_0_0_1_1_n_n.rhsIdx (ix2 g f) ((contrEquiv1 dot_S5000x512_S5000x128_S512x128_0_0_1_1_n_n 5000 rfl rfl).symm k) = ix2 k f := funext fun a => Fin.ext (by
    match a with
    | ⟨0, _⟩ => exact (rhs_pool_0 _ _).trans hk
    | ⟨1, _⟩ => exact rhs_pool_1 _ _)
  rw [el, er, truncf_apply, truncf_apply, sitofp_apply, extui_apply]
  show FloatOps.sitofp (F := Ideal) .f32 ((IntOp.cmpi .eq (iota .tc S5000x512 32 [1] iota_S5000x512_d1_w32 (ix2 k g)) (broadcastTo S5000x512 ids broadcasts_S5000x1_S5000x512 (ix2 k g))).setWidth 32) * x (ix2 k f) = _
  rw [iota_single_apply, broadcastTo_apply ids broadcasts_S5000x1_S5000x512 (ix2 k g) (ix2 k (0 : Fin 1)) (fun a => by
    match a with
    | ⟨0, _⟩ => show k.val = if (5000 : Nat) = 1 then 0 else k.val; rw [if_neg (by decide)]
    | ⟨1, _⟩ => show (0 : Nat) = if (1 : Nat) = 1 then 0 else _; rw [if_pos rfl]), pool_onehot_entry]
  split
  · exact one_mul _
  · exact zero_mul _

/-- The reference's scatter: update row r of the 100000x128 features goes to the row of the 512x128 operand that the
    id word at (r, 0), read signed, names. -/
abbrev poolScatter : ScatterDims Cert.ReferenceIdeal.S512x128 Cert.ReferenceIdeal.S100000x1 Cert.ReferenceIdeal.S100000x128 :=
  Cert.ReferenceIdeal.scatter_S512x128_S100000x1_S100000x128_1_0_0_1

theorem pool_siIdx (r : Fin 100000) (f' : Fin 128) (h : 0 < poolScatter.scatterDimsToOperandDims.length) :
    poolScatter.siIdx (ix2 r f') ⟨0, h⟩ = ix2 r (0 : Fin 1) := by
  funext b
  apply Fin.ext
  match b with
  | ⟨0, _⟩ => rfl
  | ⟨1, _⟩ => rfl

theorem pool_start_0 (idx : IVec Cert.ReferenceIdeal.S100000x1 32) (r : Fin 100000) (f' : Fin 128) :
    poolScatter.start (ix2 r f') idx 0 = (idx (ix2 r (0 : Fin 1))).toInt := by
  unfold ScatterDims.start
  rw [dif_pos (show (0 : Fin Cert.ReferenceIdeal.S512x128.rank) ∈ poolScatter.scatterDimsToOperandDims by decide)]
  exact congrArg (fun k => (idx k).toInt) (pool_siIdx r f' _)

theorem pool_start_1 (idx : IVec Cert.ReferenceIdeal.S100000x1 32) (r : Fin 100000) (f' : Fin 128) :
    poolScatter.start (ix2 r f') idx 1 = 0 := by
  unfold ScatterDims.start
  rw [dif_neg (show ¬(1 : Fin Cert.ReferenceIdeal.S512x128.rank) ∈ poolScatter.scatterDimsToOperandDims by decide)]

theorem pool_window_0 (r : Fin 100000) (f' : Fin 128) : poolScatter.window (ix2 r f') 0 = 0 := by
  unfold ScatterDims.window
  rw [dif_neg (show ¬(0 : Fin Cert.ReferenceIdeal.S512x128.rank) ∈ poolScatter.sKept by decide)]

theorem pool_window_1 (r : Fin 100000) (f' : Fin 128) : poolScatter.window (ix2 r f') 1 = f'.val := by
  unfold ScatterDims.window
  rw [dif_pos (show (1 : Fin Cert.ReferenceIdeal.S512x128.rank) ∈ poolScatter.sKept by decide)]
  rfl

open Idealize.ShloMosaic.StableHlo.Predicate in
/-- A word read signed is the small natural g exactly when it is the word g. -/
theorem pool_toInt_eq_small_iff (w : BitVec 32) (g : ℕ) (hg : g < 2 ^ 31) : w.toInt = (g : ℤ) ↔ BitVec.ofNat 32 g = w := by
  constructor
  · intro h
    have := congrArg (BitVec.ofInt 32) h
    rw [BitVec.ofInt_toInt, BitVec.ofInt_natCast] at this
    exact this.symm
  · rintro rfl
    exact toInt_ofNat_small g hg

/-- Where an update entry lands: entry (r, f') of the features lands on entry (g, f) of the operand exactly when
    f' = f and the id word of row r is g (an id outside 0 … 511, read signed, lands nowhere). -/
theorem pool_lands_iff (idx : IVec Cert.ReferenceIdeal.S100000x1 32) (r : Fin 100000) (f' : Fin 128) (g : Fin 512) (f : Fin 128) :
    poolScatter.resultIdx? (ix2 r f') idx = some (ix2 g f) ↔ f' = f ∧ BitVec.ofNat 32 g.val = idx (ix2 r (0 : Fin 1)) := by
  have hg : g.val < 512 := g.isLt
  have hf : f.val < 128 := f.isLt
  have hf' : f'.val < 128 := f'.isLt
  rw [← pool_toInt_eq_small_iff _ g.val (by omega)]
  unfold ScatterDims.resultIdx?
  split
  · rename_i h
    have h0 : 0 ≤ poolScatter.start (ix2 r f') idx 0 + (poolScatter.window (ix2 r f') 0 : ℤ) ∧ poolScatter.start (ix2 r f') idx 0 + (poolScatter.window (ix2 r f') 0 : ℤ) < (512 : ℕ) := h 0
    rw [pool_start_0, pool_window_0] at h0
    rw [Option.some.injEq]
    constructor
    · intro e
      have e0 : (poolScatter.start (ix2 r f') idx 0 + (poolScatter.window (ix2 r f') 0 : ℤ)).toNat = g.val := congrArg (fun k => (k 0).val) e
      have e1 : (poolScatter.start (ix2 r f') idx 1 + (poolScatter.window (ix2 r f') 1 : ℤ)).toNat = f.val := congrArg (fun k => (k 1).val) e
      rw [pool_start_0, pool_window_0] at e0
      rw [pool_start_1, pool_window_1] at e1
      refine ⟨Fin.ext ?_, ?_⟩ <;> omega
    · rintro ⟨rfl, e⟩
      funext a
      apply Fin.ext
      match a with
      | ⟨0, _⟩ => show (poolScatter.start (ix2 r f') idx 0 + (poolScatter.window (ix2 r f') 0 : ℤ)).toNat = g.val
                  rw [pool_start_0, pool_window_0]; omega
      | ⟨1, _⟩ => show (poolScatter.start (ix2 r f') idx 1 + (poolScatter.window (ix2 r f') 1 : ℤ)).toNat = f'.val
                  rw [pool_start_1, pool_window_1]; omega
  · rename_i h
    refine iff_of_false (by simp) fun ⟨_, e⟩ => h fun a => ?_
    match a with
    | ⟨0, _⟩ => show 0 ≤ poolScatter.start (ix2 r f') idx 0 + (poolScatter.window (ix2 r f') 0 : ℤ) ∧ poolScatter.start (ix2 r f') idx 0 + (poolScatter.window (ix2 r f') 0 : ℤ) < (512 : ℕ)
                rw [pool_start_0, pool_window_0]; omega
    | ⟨1, _⟩ => show 0 ≤ poolScatter.start (ix2 r f') idx 1 + (poolScatter.window (ix2 r f') 1 : ℤ) ∧ poolScatter.start (ix2 r f') idx 1 + (poolScatter.window (ix2 r f') 1 : ℤ) < (128 : ℕ)
                rw [pool_start_1, pool_window_1]; omega

/-- The reference at an entry: the zero operand's entry plus the feature entries (i, f) of the rows i whose id word is g. -/
theorem pool_scatter_apply (ids : IVec Cert.ReferenceIdeal.S100000x1 32) (X : FVec Ideal Cert.ReferenceIdeal.S100000x128 .f32)
    (g : Fin 512) (f : Fin 128) :
    Host.scatterAdd (F := Ideal) Cert.ReferenceIdeal.scatter_S512x128_S100000x1_S100000x128_1_0_0_1
        (broadcastInDim Cert.ReferenceIdeal.S512x128 ![] Cert.ReferenceIdeal.Gen.bcast_S_S512x128 (constant (F := Ideal) Cert.ReferenceIdeal.S_ .f32 0x00000000#32))
        ids X (ix2 g f)
      = 0 + ∑ i : Fin 100000, if BitVec.ofNat 32 g.val = ids (ix2 i (0 : Fin 1)) then X (ix2 i f) else 0 := by
  simp only [Host.scatterAdd]
  rw [Ideal.hostScatterAdd_def]
  unfold Ideal.hostScatterAdd
  refine congr (congrArg HAdd.hAdd ?_) ?_
  · exact Ideal.ofBits_zero_f32
  · rw [Finset.sum_filter, sum_idx2,
      ← pool_sum_col_select (fun i : Fin 100000 => BitVec.ofNat 32 g.val = ids (ix2 i (0 : Fin 1))) f (fun r f' => X (ix2 r f'))]
    exact Finset.sum_congr rfl fun r _ => Finset.sum_congr rfl fun f' _ => if_congr (pool_lands_iff ids r f' g f) rfl rfl

section Region
variable (V : (c : Dev nD) → (b : Ref sig .tc) → Buf (Elt Ideal) ((c : Thread nD τ).loc b))

theorem pool_hz : (![0, 0] : Fin 2 → Nat) = fun _ => 0 := funext fun a => by fin_cases a <;> rfl

/-- The last grid point. -/
abbrev poolLast : Fin cfg2.N := ⟨19, by decide⟩

/-- The accumulator after the last point, as contents of the result array (its one block is the whole array). -/
abbrev pooled (c : Dev nD) : Buf (Elt Ideal) ((c : Thread nD τ).loc main_v72) := accAt2 V c 19 poolLast.isLt

/-- The one write-back, at the last point, writes it: block (0, 0) of the 512x128 array read through zero offsets is
    the array. -/
theorem pool_flushed_eq (c : Dev nD) (t : Fin cfg2.N) (hf : (cfg2.win 2).flush t = true) :
    (dat2 V c).flushed 2 t = ((cfg2.win 2).blk t).view.read (Elt Ideal) (pooled V c) := by
  have hN : cfg2.N = 20 := N_2
  have h19 : t.val = 19 := by have := (flush2_2 t).mp hf; have := t.isLt; omega
  obtain rfl : t = poolLast := Fin.ext h19
  show (cfg2.win 2).cut (grid2.coords poolLast) ((dat2 V c).after 2 poolLast) = _
  rw [after2_2]
  have hz' : (fun a => win2_2.index poolLast a * main_v72.ty.shape.size a) = fun _ => 0 := funext fun a => by fin_cases a <;> decide
  exact (Memref.read_access_unit_zero (Elt Ideal) main_v72 hz' (fun a => by rw [congrFun hz' a]; simp) (pooled V c)).symm

/-- So the result array ends holding the accumulator after the last point. -/
theorem pool_final (c : Dev nD) : (dat2 V c).arrAt 2 cfg2.N = pooled V c :=
  (dat2 V c).arrAt_eq_of_cover 2 (pooled V c) (pool_flushed_eq V c) fun i =>
    ⟨poolLast, (flush2_2 poolLast).mpr rfl, by
      show i ∈ ((View.whole main_v72).slice (win2_2.rect poolLast)).set
      rw [View.set_slice_whole, Rect.mem_set_unit]
      intro a
      have h0 : (i 0 : Nat) < 512 := (i 0).isLt
      have h1 : (i 1 : Nat) < 128 := (i 1).isLt
      match a with
      | ⟨0, _⟩ => show win2_2.index poolLast 0 * win2_2.size 0 ≤ (i 0 : Nat) ∧ (i 0 : Nat) < win2_2.index poolLast 0 * win2_2.size 0 + win2_2.xsize (grid2.coords poolLast) 0
                  rw [show win2_2.index poolLast 0 * win2_2.size 0 = 0 from by decide +kernel, show win2_2.xsize (grid2.coords poolLast) 0 = 512 from by decide +kernel]; omega
      | ⟨1, _⟩ => show win2_2.index poolLast 1 * win2_2.size 1 ≤ (i 1 : Nat) ∧ (i 1 : Nat) < win2_2.index poolLast 1 * win2_2.size 1 + win2_2.xsize (grid2.coords poolLast) 1
                  rw [show win2_2.index poolLast 1 * win2_2.size 1 = 0 from by decide +kernel, show win2_2.xsize (grid2.coords poolLast) 1 = 128 from by decide +kernel]; omega⟩

/-- The feature rows and the segment id words as the region finds them. -/
abbrev poolFeats (c : Dev nD) : S100000x128.Idx → EReal := V c main_v66
abbrev poolSegs (c : Dev nD) : S100000x1.Idx → BitVec 32 := V c main_v67

/-- The printed index maps over the grid: the feature and id windows are at row block t, column block 0. -/
theorem pool_idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row y of the feature block at point t is row 5000 t + y of the feature array. -/
theorem pool_feat_block (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = poolFeats V c i := by
  obtain ⟨e0, e1, -, -⟩ := pool_idx_facts t
  unfold iblk2
  rw [View.read_apply]
  show V c main_v66 _ = V c main_v66 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- Row y of the id block at point t is row 5000 t + y of the id array. -/
theorem pool_id_block (c : Dev nD) (t : Fin cfg2.N) (y : S5000x1.Idx) (i : S100000x1.Idx)
    (h0 : (i 0).val = 5000 * t.val + (y 0).val) (h1 : (i 1).val = (y 1).val) :
    (iblk2 V c 1 t : Vec Ideal S5000x1 .i32) y = poolSegs V c i := by
  obtain ⟨-, -, e0, e1⟩ := pool_idx_facts t
  unfold iblk2
  rw [View.read_apply]
  show V c main_v67 _ = V c main_v67 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 1 + 1 * (y 1).val = (i 1).val; rw [e1, h1]; omega

end Region

section Sums
variable (V : (c : Dev nD) → (b : Ref sig .tc) → Buf (Elt Ideal) ((c : Thread nD τ).loc b))

/-- The zero block the first point stores. -/
theorem pool_zero_entry (j : S512x128.Idx) : k2_pay1 (F := Ideal) j = 0 := by
  unfold k2_pay1
  simp only [shapeCast_self]
  exact Ideal.ofBits_zero_f32

/-- What point t adds to entry (g, f): the feature entries (r, f) of block t's rows r whose id word is g. -/
def poolBlockTerm (c : Dev nD) (g : Fin 512) (f : Fin 128) (t : Fin cfg2.N) : EReal :=
  ∑ r : Fin 5000, if BitVec.ofNat 32 g.val = (iblk2 V c 1 t : Vec Ideal S5000x1 .i32) (ix2 r (0 : Fin 1))
    then (iblk2 V c 0 t : Vec Ideal S5000x128 .f32) (ix2 r f) else 0

/-- The accumulator after the last point, at an entry: zero plus every point's term. -/
theorem pooled_apply (c : Dev nD) (g : Fin 512) (f : Fin 128) :
    (pooled V c : S512x128.Idx → EReal) (ix2 g f) = 0 + ∑ t : Fin cfg2.N, poolBlockTerm V c g f t := by
  refine pool_fold_eq_sum (0 : EReal) (poolBlockTerm V c g f) (fun n h => (accAt2 V c n h : S512x128.Idx → EReal) (ix2 g f)) ?_ ?_ 19 poolLast.isLt (by decide)
  · intro h
    show (accAt2 V c 0 h : S512x128.Idx → EReal) (ix2 g f) = _
    rw [accAt2_zero]
    refine (pool_pay2_apply _ _ _ g f).trans ?_
    rw [pool_zero_entry]
    rfl
  · intro n h
    show (accAt2 V c (n + 1) h : S512x128.Idx → EReal) (ix2 g f) = _
    rw [accAt2_succ]
    exact pool_pay2_apply _ _ _ g f

/-- Row r of block t is row 5000 t + r of the arrays. -/
def poolRow (t : Fin cfg2.N) (r : Fin 5000) : Fin 100000 :=
  ⟨5000 * t.val + r.val, by have := t.isLt; have hN : cfg2.N = 20 := N_2; have := r.isLt; omega⟩

/-- A point's term over the arrays' own rows. -/
theorem poolBlockTerm_eq (c : Dev nD) (g : Fin 512) (f : Fin 128) (t : Fin cfg2.N) :
    poolBlockTerm V c g f t = ∑ r : Fin 5000, if BitVec.ofNat 32 g.val = poolSegs V c (ix2 (poolRow t r) (0 : Fin 1))
      then poolFeats V c (ix2 (poolRow t r) f) else 0 := by
  unfold poolBlockTerm
  refine Finset.sum_congr rfl fun r _ => ?_
  rw [pool_id_block V c t (ix2 r (0 : Fin 1)) (ix2 (poolRow t r) (0 : Fin 1)) rfl rfl,
    pool_feat_block V c t (ix2 r f) (ix2 (poolRow t r) f) rfl rfl]

/-- The accumulator after the last point, at an entry: the feature entries (i, f) of all the rows i whose id word is g. -/
theorem pooled_eq_rows (c : Dev nD) (g : Fin 512) (f : Fin 128) :
    (pooled V c : S512x128.Idx → EReal) (ix2 g f)
      = 0 + ∑ i : Fin 100000, if BitVec.ofNat 32 g.val = poolSegs V c (ix2 i (0 : Fin 1))
          then poolFeats V c (ix2 i f) else 0 := by
  rw [pooled_apply,
    ← pool_sum_blocks (N := 100000) (B := cfg2.N) (R := 5000) (by decide) poolRow (fun t r => rfl)
      (fun i => if BitVec.ofNat 32 g.val = poolSegs V c (ix2 i (0 : Fin 1))
          then poolFeats V c (ix2 i f) else 0)]
  exact congrArg (0 + ·) (Finset.sum_congr rfl fun t _ => poolBlockTerm_eq V c g f t)

/-- The pooling region's result is the reference's accumulating scatter of the feature rows along the segment ids into
    the zero array. -/
theorem pool_eq (c : Dev nD) : (dat2 (F := Ideal) V c).arrAt 2 cfg2.N = Host.scatterAdd (F := Ideal) Cert.ReferenceIdeal.scatter_S512x128_S100000x1_S100000x128_1_0_0_1 (broadcastInDim S512x128 ![] Cert.ReferenceIdeal.Gen.bcast_S_S512x128 (constant (F := Ideal) S_ .f32 0x00000000#32)) (V c main_v67) (V c main_v66) := by
  rw [pool_final]
  funext j
  obtain ⟨g, f, rfl⟩ : ∃ (g : Fin 512) (f : Fin 128), j = ix2 g f := ⟨j 0, j 1, eq_ix2 j⟩
  exact (pooled_eq_rows V c g f).trans (pool_scatter_apply _ _ g f).symm

end Sums

end Cert.KernelIdeal.Hand

end
-- ==== Proof.HostChain.lean ====
/- The kernel program's result as the reference's composed term. Both programs apply the same host operations around three
   regions; with each region's result array holding the reference's operation on the region's inputs (two matrix products, one
   pooling sum), the buffers between the program's items are, stage by stage, the stages of one function of the nine argument
   arrays, and the reference's composed term is that function of its own arguments. -/
import proofs.«425442_j15298673508536_2_alg».proof.Proof.Fold
import proofs.«425442_j15298673508536_2_alg».proof.ReferenceIdeal
import proofs.«425442_j15298673508536_2_alg».proof.Proof.Gen.ReferenceIdeal
import proofs.«425442_j15298673508536_2_alg».proof.Proof.RefRun
import Idealize.ShloMosaic.Lib.StableHlo.Run
import Idealize.ShloMosaic.Lib.Pipeline.Value
import Idealize.ShloMosaic.Lib.ValueLayout
import Idealize.ShloMosaic.Lib.ValueIdx
import Idealize.ShloMosaic.Lib.Tactic

set_option maxRecDepth 16384

noncomputable section

/-! The reference's result as ONE function of the nine argument arrays, built from named stages:
    the edge list with self loops appended, the degree normalisation of every edge, the normalised
    aggregation of node features over the edges (used by both layers), and the mean pooling. -/
namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

local macro "𝕋[" s:term ", " e:term "]" : term => `(Vec F $s $e)

/-- The source of every edge: row 0 of the edge list, followed by the node numbers 0 … 99999 (a self loop at every node). -/
def src (e : 𝕋[S2x600000, .i32]) : 𝕋[S700000, .i32] :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0
/-- The destination of every edge: row 1 of the edge list, followed by the same node numbers. -/
def dst (e : 𝕋[S2x600000, .i32]) : 𝕋[S700000, .i32] :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- An index list as a gather's start indices: a negative index counts from the end. -/
def wrap (x : 𝕋[S700000, .i32]) : 𝕋[S700000x1, .i32] :=
  broadcastInDim S700000x1 ![0] bcast_S700000_S700000x1_0 (select (cmpi .slt x (broadcastInDim S700000 ![] bcast_S_S700000 (constantI S_ 32 0#32))) (addi x (broadcastInDim S700000 ![] bcast_S_S700000 (constantI S_ 32 100000#32))) x)

/-- The in-degree of every node: one added at the destination of every edge. -/
def deg (e : 𝕋[S2x600000, .i32]) : 𝕋[S100000, .f32] :=
  Host.scatterAdd scatter_S100000_S700000x1_S700000_n_0_0_1 (broadcastInDim S100000 ![] bcast_S_S100000 (constant S_ .f32 0x00000000#32)) (broadcastInDim S700000x1 ![0] bcast_S700000_S700000x1_0 (dst e)) (broadcastInDim S700000 ![] bcast_S_S700000 (constant S_ .f32 0x3F800000#32))

/-- Where the degree is positive. -/
def pos (e : 𝕋[S2x600000, .i32]) : 𝕋[S100000, .i1] :=
  cmpf .ogt (deg e) (broadcastInDim S100000 ![] bcast_S_S100000 (constant S_ .f32 0x00000000#32))
/-- (max deg 1)^(-1/2). -/
def rs (e : 𝕋[S2x600000, .i32]) : 𝕋[S100000, .f32] :=
  Host.rsqrt (maximumf (deg e) (broadcastInDim S100000 ![] bcast_S_S100000 (constant S_ .f32 0x3F800000#32)))
/-- The scalar 0. -/
def zero : 𝕋[S_, .f32] := constant S_ .f32 0x00000000#32

/-- deg^(-1/2) where the degree is positive, 0 elsewhere. -/
def dinv (e : 𝕋[S2x600000, .i32]) : 𝕋[S100000, .f32] :=
  select (pos e) (rs e) (broadcastInDim S100000 ![] bcast_S_S100000 (id zero))

/-- The weight of every edge: dinv at its source times dinv at its destination. -/
def enorm (e : 𝕋[S2x600000, .i32]) : 𝕋[S700000, .f32] :=
  mulf (Host.gather gather_S100000_S700000x1_S700000_n_0_n_n_0_1_1 (dinv e) (wrap (src e))) (Host.gather gather_S100000_S700000x1_S700000_n_0_n_n_0_1_1 (dinv e) (wrap (dst e)))

/-- One layer's aggregation: every edge adds its weight times the source's row into the destination's row; then the bias. -/
def agg (e : 𝕋[S2x600000, .i32]) (h : 𝕋[S100000x128, .f32]) (b : 𝕋[S128, .f32]) : 𝕋[S100000x128, .f32] :=
  addf (Host.scatterAdd scatter_S100000x128_S700000x1_S700000x128_1_0_0_1 (broadcastInDim S100000x128 ![] bcast_S_S100000x128 (constant S_ .f32 0x00000000#32)) (broadcastInDim S700000x1 ![0] bcast_S700000_S700000x1_0 (dst e)) (mulf (broadcastInDim S700000x128 ![0, 1] bcast_S700000x1_S700000x128_0_1 (broadcastInDim S700000x1 ![0] bcast_S700000_S700000x1_0 (enorm e))) (Host.gather gather_S100000x128_S700000x1_S700000x128_1_0_n_n_0_1_1128 h (wrap (src e))))) (broadcastInDim S100000x128 ![0, 1] bcast_S1x128_S100000x128_0_1 (broadcastInDim S1x128 ![1] bcast_S128_S1x128_1 b))

/-- The matrix product of node features with a weight matrix. -/
def mm (x : 𝕋[S100000x128, .f32]) (w : 𝕋[S128x128, .f32]) : 𝕋[S100000x128, .f32] :=
  Host.dotGeneral (φ₁ := .f32) (φ₂ := .f32) dot_S100000x128_S128x128_S100000x128_1_0_0_1_n_n none x w

/-- The first layer's output: aggregation of x·W₁, bias, rectified. -/
def hidden (x : 𝕋[S100000x128, .f32]) (e : 𝕋[S2x600000, .i32]) (w1 : 𝕋[S128x128, .f32]) (b1 : 𝕋[S128, .f32]) : 𝕋[S100000x128, .f32] :=
  maximumf (agg e (mm x w1) b1) (broadcastInDim S100000x128 ![] bcast_S_S100000x128 (constant S_ .f32 0x00000000#32))

/-- The number of nodes of every graph. -/
def count (g : 𝕋[S100000, .i32]) : 𝕋[S512, .f32] :=
  Host.scatterAdd scatter_S512_S100000x1_S100000_n_0_0_1 (broadcastInDim S512 ![] bcast_S_S512 (constant S_ .f32 0x00000000#32)) (broadcastInDim S100000x1 ![0] bcast_S100000_S100000x1_0 g) (broadcastInDim S100000 ![] bcast_S_S100000 (constant S_ .f32 0x3F800000#32))

/-- The sum of the rows of every graph's nodes. -/
def pool (i : 𝕋[S100000x1, .i32]) (h : 𝕋[S100000x128, .f32]) : 𝕋[S512x128, .f32] :=
  Host.scatterAdd scatter_S512x128_S100000x1_S100000x128_1_0_0_1 (broadcastInDim S512x128 ![] bcast_S_S512x128 (constant S_ .f32 0x00000000#32)) i h

/-- The head: the pooled sums over the counts (at least 1), times the last weight, plus the last bias. -/
def head (p : 𝕋[S512x128, .f32]) (n : 𝕋[S512, .f32]) (w : 𝕋[S128x1, .f32]) (b : 𝕋[S1, .f32]) : 𝕋[S512x1, .f32] :=
  addf (Host.dotGeneral dot_S512x128_S128x1_S512x1_1_0_0_1_n_n none (Host.divf p (broadcastInDim S512x128 ![0, 1] bcast_S512x1_S512x128_0_1 (broadcastInDim S512x1 ![0] bcast_S512_S512x1_0 (maximumf n (broadcastInDim S512 ![] bcast_S_S512 (constant S_ .f32 0x3F800000#32)))))) w) (broadcastInDim S512x1 ![0, 1] bcast_S1x1_S512x1_0_1 (broadcastInDim S1x1 ![1] bcast_S1_S1x1_1 b))

/-- The whole network on the nine arguments. -/
def out (x : 𝕋[S100000x128, .f32]) (e : 𝕋[S2x600000, .i32]) (g : 𝕋[S100000, .i32]) (w1 : 𝕋[S128x128, .f32]) (b1 : 𝕋[S128, .f32])
    (w2 : 𝕋[S128x128, .f32]) (b2 : 𝕋[S128, .f32]) (w3 : 𝕋[S128x1, .f32]) (b3 : 𝕋[S1, .f32]) : 𝕋[S512x1, .f32] :=
  head (pool (broadcastInDim S100000x1 ![0] bcast_S100000_S100000x1_0 g) (agg e (mm (hidden x e w1 b1) w2) b2)) (count g) w3 b3

end Cert.ReferenceIdeal.Chain

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's composed term is the network on the nine arguments as launched: the same term, its stages named. -/
theorem res_eq (m : (ℓ : Loc nD τ sig) → Buf (Elt F) ℓ) (c : Dev nD) :
    ValueP.res_main_v81 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold ValueP.res_main_v81 out head pool count hidden mm agg enorm dinv zero rs pos deg wrap dst src
  rfl

end Cert.ReferenceIdeal.Chain

namespace Cert.KernelIdeal.Hand

open Cert.KernelIdeal.Gen
open Idealize.ShloMosaic Idealize.ShloMosaic.TcCoe Idealize.ShloMosaic.Tactic
open Idealize.SL.Sem
open Idealize.ShloMosaic.Pipeline (Dat Cfg Window)
open Idealize.ShloMosaic.StableHlo Idealize.ShloMosaic.ValueIdx
open Cert.ReferenceIdeal (Chain.src Chain.dst Chain.wrap Chain.deg Chain.pos Chain.rs Chain.zero Chain.dinv Chain.enorm Chain.agg Chain.mm Chain.hidden Chain.count Chain.pool Chain.head Chain.out)

/-- A vector reshaped to one column is the vector broadcast along the rows: both read, at (i, 0), the entry i. -/
theorem shapeCast_a_a1_eq {α : Type} {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  rw [eq_ix2 j]
  have hu : (j 1).val = 0 := by have := idx2_lt1 j; omega
  have e1 : shapeCast ⟨2, ![a, 1]⟩ x h (ix2 (j 0) (j 1)) = x (ix1 (j 0)) :=
    shapeCast_apply x h _ _ (by
      rw [Shape.rowMajor_val_two, Shape.rowMajor_val_one]
      show (j 0).val = (j 0).val * 1 + (j 1).val
      omega)
  have e2 : broadcastInDim ⟨2, ![a, 1]⟩ ![0] h' x (ix2 (j 0) (j 1)) = x (ix1 (j 0)) :=
    broadcastInDim_apply ![0] h' x _ _ (fun d => by
      match d with
      | ⟨0, _⟩ =>
        show (j 0).val = if a = 1 then 0 else (j 0).val
        have := idx2_lt0 j
        split_ifs with h1
        · omega
        · rfl)
  exact e1.trans e2.symm

variable {F : FTy → Type} [FloatOps F]

variable (m : (ℓ : Loc nD τ sig) → Buf (Elt F) ℓ)

/-! ## Before the first matrix product: the edge list and the edge weights -/

theorem W1_v3 (c : Dev nD) : W1 m c (Proc.devRef .tc main_v3) = Chain.src (m ((c.tc : Thread nD τ).loc main_arg1)) := by
  show StableHlo.after hostOps0 (W0 m c) (Proc.devRef .tc main_v3) = _
  after_results
  rfl

theorem W1_v6 (c : Dev nD) : W1 m c (Proc.devRef .tc main_v6) = Chain.dst (m ((c.tc : Thread nD τ).loc main_arg1)) := by
  show StableHlo.after hostOps0 (W0 m c) (Proc.devRef .tc main_v6) = _
  after_results
  rfl

theorem W1_v12 (c : Dev nD) : W1 m c (Proc.devRef .tc main_v12) = Chain.pos (m ((c.tc : Thread nD τ).loc main_arg1)) := by
  show StableHlo.after hostOps0 (W0 m c) (Proc.devRef .tc main_v12) = _
  after_results
  rfl
theorem W1_v15 (c : Dev nD) : W1 m c (Proc.devRef .tc main_v15) = Chain.rs (m ((c.tc : Thread nD τ).loc main_arg1)) := by
  show StableHlo.after hostOps0 (W0 m c) (Proc.devRef .tc main_v15) = _
  after_results
  rfl
theorem W1_cst3 (c : Dev nD) : W1 m c (Proc.devRef .tc main_cst_3) = (Chain.zero : Vec F _ _) := by
  show StableHlo.after hostOps0 (W0 m c) (Proc.devRef .tc main_cst_3) = _
  after_results
  rfl

theorem W2_v16 (c : Dev nD) : W2 m c (Proc.devRef .tc main_v16) = Chain.dinv (m ((c.tc : Thread nD τ).loc main_arg1)) := by
  show StableHlo.after hostOps0_1 (W1 m c) (Proc.devRef .tc main_v16) = _
  generalize hV : W1 m c = V
  after_results
  subst hV
  rw [W1_v12, W1_v15, W1_cst3]
  rfl

/-- A buffer written before the callee keeps its contents through the two later stretches. -/
theorem W3_W1 (c : Dev nD) (r : Ref sig .tc) (h1 : r ∉ hostOps0_1_W) (h2 : r ∉ hostOps0_2_W) :
    W3 m c (Proc.devRef .tc r) = W1 m c (Proc.devRef .tc r) :=
  (W3_of m c r h2).trans (W2_of m c r h1)
theorem W2_W1 (c : Dev nD) (r : Ref sig .tc) (h1 : r ∉ hostOps0_1_W) :
    W2 m c (Proc.devRef .tc r) = W1 m c (Proc.devRef .tc r) := W2_of m c r h1
/-- An argument array is never written. -/
theorem W3_W0 (c : Dev nD) (r : Ref sig .tc) (h0 : r ∉ hostOps0_W) (h1 : r ∉ hostOps0_1_W) (h2 : r ∉ hostOps0_2_W) :
    W3 m c (Proc.devRef .tc r) = m ((c.tc : Thread nD τ).loc r) :=
  (W3_of m c r h2).trans ((W2_of m c r h1).trans ((W1_of m c r h0).trans rfl))

theorem W3_v3 (c : Dev nD) : W3 m c (Proc.devRef .tc main_v3) = Chain.src (m ((c.tc : Thread nD τ).loc main_arg1)) :=
  (W3_W1 m c main_v3 (by decide) (by decide)).trans (W1_v3 m c)
theorem W3_v6 (c : Dev nD) : W3 m c (Proc.devRef .tc main_v6) = Chain.dst (m ((c.tc : Thread nD τ).loc main_arg1)) :=
  (W3_W1 m c main_v6 (by decide) (by decide)).trans (W1_v6 m c)

set_option maxHeartbeats 1000000 in
theorem W3_v31 (c : Dev nD) : W3 m c (Proc.devRef .tc main_v31) = Chain.enorm (m ((c.tc : Thread nD τ).loc main_arg1)) := by
  show StableHlo.after hostOps0_2 (W2 m c) (Proc.devRef .tc main_v31) = _
  generalize hV : W2 m c = V
  after_results_simp
  subst hV
  rw [W2_v16, W2_W1 m c main_v3 (by decide), W2_W1 m c main_v6 (by decide), W1_v3, W1_v6]
  rfl

/-! ## The three regions' results, as hypotheses: each leaves in its result array the reference's operation on what its inputs held -/

/-- The first matrix product. -/
abbrev Hmm0 (F : FTy → Type) [FloatOps F] : Prop :=
  ∀ (V : (c : Dev nD) → (b : Ref sig .tc) → Buf (Elt F) ((c : Thread nD τ).loc b)) (c : Dev nD),
    (dat0 (F := F) V c).arrAt 2 cfg0.N = Host.dotGeneral (F := F) (φ₁ := .f32) (φ₂ := .f32) Cert.ReferenceIdeal.dot_S100000x128_S128x128_S100000x128_1_0_0_1_n_n none (V c main_arg0) (V c main_arg3)
/-- The second matrix product. -/
abbrev Hmm1 (F : FTy → Type) [FloatOps F] : Prop :=
  ∀ (V : (c : Dev nD) → (b : Ref sig .tc) → Buf (Elt F) ((c : Thread nD τ).loc b)) (c : Dev nD),
    (dat1 (F := F) V c).arrAt 2 cfg1.N = Host.dotGeneral (F := F) (φ₁ := .f32) (φ₂ := .f32) Cert.ReferenceIdeal.dot_S100000x128_S128x128_S100000x128_1_0_0_1_n_n none (V c main_v49) (V c main_arg5)
/-- The pooling: the rows added into their graphs' rows, from zero. -/
abbrev Hpool (F : FTy → Type) [FloatOps F] : Prop :=
  ∀ (V : (c : Dev nD) → (b : Ref sig .tc) → Buf (Elt F) ((c : Thread nD τ).loc b)) (c : Dev nD),
    (dat2 (F := F) V c).arrAt 2 cfg2.N = Host.scatterAdd (F := F) Cert.ReferenceIdeal.scatter_S512x128_S100000x1_S100000x128_1_0_0_1 (broadcastInDim S512x128 ![] Cert.ReferenceIdeal.Gen.bcast_S_S512x128 (constant (F := F) S_ .f32 0x00000000#32)) (V c main_v67) (V c main_v66)

/-! ## The first layer -/

theorem W4_v32 (hmm0 : Hmm0 F) (c : Dev nD) :
    W4 m c (Proc.devRef .tc main_v32) = Chain.mm (m ((c.tc : Thread nD τ).loc main_arg0)) (m ((c.tc : Thread nD τ).loc main_arg3)) := by
  refine (W4_arr m c 2).trans ((hmm0 (R3 m) c).trans ?_)
  have e0 : R3 m c main_arg0 = m ((c.tc : Thread nD τ).loc main_arg0) := W3_W0 m c main_arg0 (by decide) (by decide) (by decide)
  have e3 : R3 m c main_arg3 = m ((c.tc : Thread nD τ).loc main_arg3) := W3_W0 m c main_arg3 (by decide) (by decide) (by decide)
  rw [e0, e3]
  rfl

set_option maxHeartbeats 1000000 in
theorem W5_v48 (hmm0 : Hmm0 F) (c : Dev nD) :
    W5 m c (Proc.devRef .tc main_v48) = Chain.agg (m ((c.tc : Thread nD τ).loc main_arg1))
      (Chain.mm (m ((c.tc : Thread nD τ).loc main_arg0)) (m ((c.tc : Thread nD τ).loc main_arg3))) (m ((c.tc : Thread nD τ).loc main_arg4)) := by
  show StableHlo.after hostOps1 (W4 m c) (Proc.devRef .tc main_v48) = _
  generalize hV : W4 m c = V
  after_results_simp
  subst hV
  rw [W4_keep m c main_v31 (by decide), W4_keep m c main_v3 (by decide), W4_keep m c main_v6 (by decide),
    W4_keep m c main_arg4 (by decide), W4_v32 m hmm0 c, W3_v31, W3_v3, W3_v6,
    W3_W0 m c main_arg4 (by decide) (by decide) (by decide)]
  rfl

theorem W6_v49 (hmm0 : Hmm0 F) (c : Dev nD) :
    W6 m c (Proc.devRef .tc main_v49) = Chain.hidden (m ((c.tc : Thread nD τ).loc main_arg0)) (m ((c.tc : Thread nD τ).loc main_arg1))
      (m ((c.tc : Thread nD τ).loc main_arg3)) (m ((c.tc : Thread nD τ).loc main_arg4)) := by
  show StableHlo.after hostOps1_1 (W5 m c) (Proc.devRef .tc main_v49) = _
  generalize hV : W5 m c = V
  after_results
  subst hV
  rw [W5_v48 m hmm0 c]
  rfl

/-- What the first layer does not write it leaves as it was before the first matrix product. -/
theorem W6_W3 (c : Dev nD) (r : Ref sig .tc) (h : r ≠ main_v32) (h1 : r ∉ hostOps1_W) (h2 : r ∉ hostOps1_1_W) :
    W6 m c (Proc.devRef .tc r) = W3 m c (Proc.devRef .tc r) :=
  (W6_of m c r h2).trans ((W5_of m c r h1).trans (W4_keep m c r h))

/-! ## The second layer -/

theorem W7_v50 (hmm0 : Hmm0 F) (hmm1 : Hmm1 F) (c : Dev nD) :
    W7 m c (Proc.devRef .tc main_v50) = Chain.mm (Chain.hidden (m ((c.tc : Thread nD τ).loc main_arg0)) (m ((c.tc : Thread nD τ).loc main_arg1))
      (m ((c.tc : Thread nD τ).loc main_arg3)) (m ((c.tc : Thread nD τ).loc main_arg4))) (m ((c.tc : Thread nD τ).loc main_arg5)) := by
  refine (W7_arr m c 2).trans ((hmm1 (R6 m) c).trans ?_)
  have e1 : R6 m c main_v49 = _ := W6_v49 m hmm0 c
  have e2 : R6 m c main_arg5 = m ((c.tc : Thread nD τ).loc main_arg5) :=
    (W6_W3 m c main_arg5 (by decide) (by decide) (by decide)).trans (W3_W0 m c main_arg5 (by decide) (by decide) (by decide))
  rw [e1, e2]
  rfl

/-- What neither layer has written so far is as it was before the first matrix product. -/
theorem W7_W3 (c : Dev nD) (r : Ref sig .tc) (h : r ≠ main_v32) (h1 : r ∉ hostOps1_W) (h2 : r ∉ hostOps1_1_W) (h3 : r ≠ main_v50) :
    W7 m c (Proc.devRef .tc r) = W3 m c (Proc.devRef .tc r) :=
  (W7_keep m c r h3).trans (W6_W3 m c r h h1 h2)

set_option maxHeartbeats 1000000 in
theorem W8_v66 (hmm0 : Hmm0 F) (hmm1 : Hmm1 F) (c : Dev nD) :
    W8 m c (Proc.devRef .tc main_v66) = Chain.agg (m ((c.tc : Thread nD τ).loc main_arg1))
      (Chain.mm (Chain.hidden (m ((c.tc : Thread nD τ).loc main_arg0)) (m ((c.tc : Thread nD τ).loc main_arg1))
        (m ((c.tc : Thread nD τ).loc main_arg3)) (m ((c.tc : Thread nD τ).loc main_arg4))) (m ((c.tc : Thread nD τ).loc main_arg5)))
      (m ((c.tc : Thread nD τ).loc main_arg6)) := by
  show StableHlo.after hostOps2 (W7 m c) (Proc.devRef .tc main_v66) = _
  generalize hV : W7 m c = V
  after_results_simp
  subst hV
  rw [W7_W3 m c main_v31 (by decide) (by decide) (by decide) (by decide), W7_W3 m c main_v3 (by decide) (by decide) (by decide) (by decide),
    W7_W3 m c main_v6 (by decide) (by decide) (by decide) (by decide), W7_W3 m c main_arg6 (by decide) (by decide) (by decide) (by decide),
    W7_v50 m hmm0 hmm1 c, W3_v31, W3_v3, W3_v6, W3_W0 m c main_arg6 (by decide) (by decide) (by decide)]
  rfl

/-! ## The pooling and the head -/

theorem W7_arg (c : Dev nD) (r : Ref sig .tc) (h0 : r ∉ hostOps0_W) (h0' : r ∉ hostOps0_1_W) (h0'' : r ∉ hostOps0_2_W)
    (h : r ≠ main_v32) (h1 : r ∉ hostOps1_W) (h2 : r ∉ hostOps1_1_W) (h3 : r ≠ main_v50) :
    W7 m c (Proc.devRef .tc r) = m ((c.tc : Thread nD τ).loc r) :=
  (W7_W3 m c r h h1 h2 h3).trans (W3_W0 m c r h0 h0' h0'')

/-- The graph number of every node, as one column: the reshape reads the same entries as the broadcast along the rows. -/
theorem W8_v67 (c : Dev nD) :
    W8 m c (Proc.devRef .tc main_v67) = broadcastInDim Cert.ReferenceIdeal.S100000x1 ![0] Cert.ReferenceIdeal.Gen.bcast_S100000_S100000x1_0 (m ((c.tc : Thread nD τ).loc main_arg2)) := by
  show StableHlo.after hostOps2 (W7 m c) (Proc.devRef .tc main_v67) = _
  generalize hV : W7 m c = V
  after_results_simp
  subst hV
  rw [W7_arg m c main_arg2 (by decide) (by decide) (by decide) (by decide) (by decide) (by decide) (by decide)]
  exact shapeCast_a_a1_eq _ _ _

theorem W8_v71 (c : Dev nD) : W8 m c (Proc.devRef .tc main_v71) = Chain.count (m ((c.tc : Thread nD τ).loc main_arg2)) := by
  show StableHlo.after hostOps2 (W7 m c) (Proc.devRef .tc main_v71) = _
  generalize hV : W7 m c = V
  after_results_simp
  subst hV
  rw [W7_arg m c main_arg2 (by decide) (by decide) (by decide) (by decide) (by decide) (by decide) (by decide)]
  rfl

theorem W9_v72 (hmm0 : Hmm0 F) (hmm1 : Hmm1 F) (hpool : Hpool F) (c : Dev nD) :
    W9 m c (Proc.devRef .tc main_v72) = Chain.pool
      (broadcastInDim Cert.ReferenceIdeal.S100000x1 ![0] Cert.ReferenceIdeal.Gen.bcast_S100000_S100000x1_0 (m ((c.tc : Thread nD τ).loc main_arg2)))
      (Chain.agg (m ((c.tc : Thread nD τ).loc main_arg1))
        (Chain.mm (Chain.hidden (m ((c.tc : Thread nD τ).loc main_arg0)) (m ((c.tc : Thread nD τ).loc main_arg1))
          (m ((c.tc : Thread nD τ).loc main_arg3)) (m ((c.tc : Thread nD τ).loc main_arg4))) (m ((c.tc : Thread nD τ).loc main_arg5)))
        (m ((c.tc : Thread nD τ).loc main_arg6))) := by
  refine (W9_arr m c 2).trans ((hpool (R8 m) c).trans ?_)
  have e1 : R8 m c main_v67 = _ := W8_v67 m c
  have e2 : R8 m c main_v66 = _ := W8_v66 m hmm0 hmm1 c
  rw [e1, e2]
  rfl

/-- An argument array read after the pooling region is as launched. -/
theorem W9_arg (c : Dev nD) (r : Ref sig .tc) (h0 : r ∉ hostOps0_W) (h0' : r ∉ hostOps0_1_W) (h0'' : r ∉ hostOps0_2_W)
    (h : r ≠ main_v32) (h1 : r ∉ hostOps1_W) (h2 : r ∉ hostOps1_1_W) (h3 : r ≠ main_v50) (h4 : r ∉ hostOps2_W) (h5 : r ≠ main_v72) :
    W9 m c (Proc.devRef .tc r) = m ((c.tc : Thread nD τ).loc r) :=
  (W9_keep m c r h5).trans ((W8_of m c r h4).trans (W7_arg m c r h0 h0' h0'' h h1 h2 h3))

/-- The kernel program's result is the network on the nine arguments as launched. -/
theorem W10_v81 (hmm0 : Hmm0 F) (hmm1 : Hmm1 F) (hpool : Hpool F) (c : Dev nD) :
    W10 m c (Proc.devRef .tc main_v81) = Chain.out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show StableHlo.after hostOps3 (W9 m c) (Proc.devRef .tc main_v81) = _
  generalize hV : W9 m c = V
  after_results
  subst hV
  rw [W9_v72 m hmm0 hmm1 hpool c, W9_keep m c main_v71 (by decide), W8_v71,
    W9_arg m c main_arg7 (by decide) (by decide) (by decide) (by decide) (by decide) (by decide) (by decide) (by decide) (by decide),
    W9_arg m c main_arg8 (by decide) (by decide) (by decide) (by decide) (by decide) (by decide) (by decide) (by decide) (by decide)]
  rfl

/-! ## The two results -/

/-- With the three regions' results as the reference's operations, and the two launches agreeing on the nine arguments, the kernel
    program's result array ends as the reference's composed term. -/
theorem result_eq
    (hmm0 : ∀ (V : (c : Dev nD) → (b : Ref sig .tc) → Buf (Elt Ideal) ((c : Thread nD τ).loc b)) (c : Dev nD),
      (dat0 (F := Ideal) V c).arrAt 2 cfg0.N = Host.dotGeneral (F := Ideal) (φ₁ := .f32) (φ₂ := .f32) Cert.ReferenceIdeal.dot_S100000x128_S128x128_S100000x128_1_0_0_1_n_n none (V c main_arg0) (V c main_arg3))
    (hmm1 : ∀ (V : (c : Dev nD) → (b : Ref sig .tc) → Buf (Elt Ideal) ((c : Thread nD τ).loc b)) (c : Dev nD),
      (dat1 (F := Ideal) V c).arrAt 2 cfg1.N = Host.dotGeneral (F := Ideal) (φ₁ := .f32) (φ₂ := .f32) Cert.ReferenceIdeal.dot_S100000x128_S128x128_S100000x128_1_0_0_1_n_n none (V c main_v49) (V c main_arg5))
    (hpool : ∀ (V : (c : Dev nD) → (b : Ref sig .tc) → Buf (Elt Ideal) ((c : Thread nD τ).loc b)) (c : Dev nD),
      (dat2 (F := Ideal) V c).arrAt 2 cfg2.N = Host.scatterAdd (F := Ideal) Cert.ReferenceIdeal.scatter_S512x128_S100000x1_S100000x128_1_0_0_1 (broadcastInDim S512x128 ![] Cert.ReferenceIdeal.Gen.bcast_S_S512x128 (constant (F := Ideal) S_ .f32 0x00000000#32)) (V c main_v67) (V c main_v66))
    (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8))
    (c : Dev nD) :
    W10 (F := Ideal) m c (Proc.devRef .tc main_v81) = Cert.ReferenceIdeal.ValueP.res_main_v81 m' c := by
  obtain ⟨h0, h1, h2, h3, h4, h5, h6, h7, h8⟩ := hagree c
  rw [W10_v81 m hmm0 hmm1 hpool c, Cert.ReferenceIdeal.Chain.res_eq m' c, h0, h1, h2, h3, h4, h5, h6, h7, h8]

end Cert.KernelIdeal.Hand

end
-- ==== Proof.lean ====
/- The certificate. The three frames: the word-level program and its idealization run to the end through the
   same chain of host stretches and pipeline regions (two row-tiled matrix products, one pooling accumulation),
   every argument array kept; the reference is host operations only. The idealization passes no rewrite, so it
   preserves the program trivially. Over the extended reals the two programs compute one function: a row-tiled
   product into a zero accumulator is the whole product, and summing one-hot products block by block is the
   segment sum; all other operations are shared. -/
import proofs.«425442_j15298673508536_2_alg».proof.Defs
import proofs.«425442_j15298673508536_2_alg».proof.Proof.Gen.Kernel
import proofs.«425442_j15298673508536_2_alg».proof.Proof.Gen.KernelIdeal
import proofs.«425442_j15298673508536_2_alg».proof.Proof.Gen.ReferenceIdeal
import proofs.«425442_j15298673508536_2_alg».proof.Proof.Gen.Pre_finite_inputs
import proofs.«425442_j15298673508536_2_alg».proof.Proof.KRun
import proofs.«425442_j15298673508536_2_alg».proof.Proof.Run
import proofs.«425442_j15298673508536_2_alg».proof.Proof.RefRun
import proofs.«425442_j15298673508536_2_alg».proof.Proof.MatmulValue
import proofs.«425442_j15298673508536_2_alg».proof.Proof.PoolValue
import proofs.«425442_j15298673508536_2_alg».proof.Proof.HostChain
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.KernelIdeal.Hand.W10 (F := Ideal) m c (Proc.devRef .tc Cert.KernelIdeal.main_v81),
     (θ_run Cert.KernelIdeal.defs _ _).mono (fun r h c =>
        ⟨h c _ (Cert.KernelIdeal.Hand.mem_uc Cert.KernelIdeal.main_v81 (by decide)),
         (h c _ (Cert.KernelIdeal.Hand.mem_uc Cert.KernelIdeal.main_arg0 (by decide))).trans (Cert.KernelIdeal.Hand.W10_kept m c Cert.KernelIdeal.main_arg0 (by decide) (by decide) (by decide) (by decide) (by decide) (by decide) (by decide) (by decide) (by decide) (by decide)),
         (h c _ (Cert.KernelIdeal.Hand.mem_uc Cert.KernelIdeal.main_arg1 (by decide))).trans (Cert.KernelIdeal.Hand.W10_kept m c Cert.KernelIdeal.main_arg1 (by decide) (by decide) (by decide) (by decide) (by decide) (by decide) (by decide) (by decide) (by decide) (by decide)),
         (h c _ (Cert.KernelIdeal.Hand.mem_uc Cert.KernelIdeal.main_arg2 (by decide))).trans (Cert.KernelIdeal.Hand.W10_kept m c Cert.KernelIdeal.main_arg2 (by decide) (by decide) (by decide) (by decide) (by decide) (by decide) (by decide) (by decide) (by decide) (by decide)),
         (h c _ (Cert.KernelIdeal.Hand.mem_uc Cert.KernelIdeal.main_arg3 (by decide))).trans (Cert.KernelIdeal.Hand.W10_kept m c Cert.KernelIdeal.main_arg3 (by decide) (by decide) (by decide) (by decide) (by decide) (by decide) (by decide) (by decide) (by decide) (by decide)),
         (h c _ (Cert.KernelIdeal.Hand.mem_uc Cert.KernelIdeal.main_arg4 (by decide))).trans (Cert.KernelIdeal.Hand.W10_kept m c Cert.KernelIdeal.main_arg4 (by decide) (by decide) (by decide) (by decide) (by decide) (by decide) (by decide) (by decide) (by decide) (by decide)),
         (h c _ (Cert.KernelIdeal.Hand.mem_uc Cert.KernelIdeal.main_arg5 (by decide))).trans (Cert.KernelIdeal.Hand.W10_kept m c Cert.KernelIdeal.main_arg5 (by decide) (by decide) (by decide) (by decide) (by decide) (by decide) (by decide) (by decide) (by decide) (by decide)),
         (h c _ (Cert.KernelIdeal.Hand.mem_uc Cert.KernelIdeal.main_arg6 (by decide))).trans (Cert.KernelIdeal.Hand.W10_kept m c Cert.KernelIdeal.main_arg6 (by decide) (by decide) (by decide) (by decide) (by decide) (by decide) (by decide) (by decide) (by decide) (by decide)),
         (h c _ (Cert.KernelIdeal.Hand.mem_uc Cert.KernelIdeal.main_arg7 (by decide))).trans (Cert.KernelIdeal.Hand.W10_kept m c Cert.KernelIdeal.main_arg7 (by decide) (by decide) (by decide) (by decide) (by decide) (by decide) (by decide) (by decide) (by decide) (by decide)),
         (h c _ (Cert.KernelIdeal.Hand.mem_uc Cert.KernelIdeal.main_arg8 (by decide))).trans (Cert.KernelIdeal.Hand.W10_kept m c Cert.KernelIdeal.main_arg8 (by decide) (by decide) (by decide) (by decide) (by decide) (by decide) (by decide) (by decide) (by decide) (by decide))⟩)
      (Cert.KernelIdeal.Hand.run_all (F := Ideal) m ρ),
     (θ_run Cert.ReferenceIdeal.defs _ _).mono (fun _ h c =>
        ⟨(h c).1.trans (Cert.KernelIdeal.Hand.result_eq (fun V c => Cert.KernelIdeal.Hand.mm0_eq V c) (fun V c => Cert.KernelIdeal.Hand.mm1_eq V c)
            (fun V c => Cert.KernelIdeal.Hand.pool_eq V c) m m' hagree c).symm, (h c).2⟩)
      (Cert.ReferenceIdeal.ValueP.run (F := Ideal) m' ρ')⟩⟩

end Cert.Proof

end
